-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x1024 : Shape := ⟨3, ![4, 512, 1024]⟩
abbrev S32000x1024 : Shape := ⟨2, ![32000, 1024]⟩
abbrev S4x512 : Shape := ⟨2, ![4, 512]⟩
abbrev S_ : Shape := ⟨0, ![]⟩

class Facts : Prop where
  bcast_S_S4x512x1024 : S_.BroadcastsInDim S4x512x1024 (![] : Fin 0 → Fin S4x512x1024.rank)
  reducesTo_S4x512x1024_S_d0_1_2 : S4x512x1024.ReducesTo [0, 1, 2] S_
  h_S_ : 0 < S_.numel
  bcast_S_S32000x1024 : S_.BroadcastsInDim S32000x1024 (![] : Fin 0 → Fin S32000x1024.rank)
  reducesTo_S32000x1024_S_d0_1 : S32000x1024.ReducesTo [0, 1] S_
  bcast_S_S4x512 : S_.BroadcastsInDim S4x512 (![] : Fin 0 → Fin S4x512.rank)
  reducesTo_S4x512_S_d0_1 : S4x512.ReducesTo [0, 1] S_

variable [Facts]

def fn {F : FTy → Type} [FloatOps F] (main_arg0 : FVec F S4x512x1024 .f32) (main_arg1 : FVec F S32000x1024 .f32) (main_arg2 : IVec S4x512 32) : IVec S_ 1 :=
  let main_v0 : FVec F S4x512x1024 .f32 := Host.absf main_arg0
  let main_cst : FVec F S_ .f32 := constant S_ .f32 0x7F800000#32
  let main_v1 : FVec F S4x512x1024 .f32 := broadcastInDim S4x512x1024 ![] bcast_S_S4x512x1024 main_cst
  let main_v2 : IVec S4x512x1024 1 := cmpf .olt main_v0 main_v1
  let main_c : IVec S_ 1 := constantI S_ 1 1#1
  let main_v3 : IVec S_ 1 := (fun x v => Host.reduce IntOp.andi x v reducesTo_S4x512x1024_S_d0_1_2 h_S_) main_v2 main_c
  let main_v4 : FVec F S32000x1024 .f32 := Host.absf main_arg1
  let main_cst_0 : FVec F S_ .f32 := constant S_ .f32 0x7F800000#32
  let main_v5 : FVec F S32000x1024 .f32 := broadcastInDim S32000x1024 ![] bcast_S_S32000x1024 main_cst_0
  let main_v6 : IVec S32000x1024 1 := cmpf .olt main_v4 main_v5
  let main_c_1 : IVec S_ 1 := constantI S_ 1 1#1
  let main_v7 : IVec S_ 1 := (fun x v => Host.reduce IntOp.andi x v reducesTo_S32000x1024_S_d0_1 h_S_) main_v6 main_c_1
  let main_v8 : IVec S_ 1 := andi main_v3 main_v7
  let main_c_2 : IVec S_ 32 := constantI S_ 32 4294935296#32
  let main_v9 : IVec S4x512 32 := broadcastInDim S4x512 ![] bcast_S_S4x512 main_c_2
  let main_v10 : IVec S4x512 1 := cmpi .sge main_arg2 main_v9
  let main_c_3 : IVec S_ 32 := constantI S_ 32 32000#32
  let main_v11 : IVec S4x512 32 := broadcastInDim S4x512 ![] bcast_S_S4x512 main_c_3
  let main_v12 : IVec S4x512 1 := cmpi .slt main_arg2 main_v11
  let main_v13 : IVec S4x512 1 := andi main_v10 main_v12
  let main_c_4 : IVec S_ 1 := constantI S_ 1 1#1
  let main_v14 : IVec S_ 1 := (fun x v => Host.reduce IntOp.andi x v reducesTo_S4x512_S_d0_1 h_S_) main_v13 main_c_4
  let main_v15 : IVec S_ 1 := andi main_v8 main_v14
  main_v15
-- ==== Kernel.lean ====
abbrev S4x512x1024 : Shape := ⟨3, ![4, 512, 1024]⟩
abbrev S32000x1024 : Shape := ⟨2, ![32000, 1024]⟩
abbrev S4x512 : Shape := ⟨2, ![4, 512]⟩
abbrev S2048x1024 : Shape := ⟨2, ![2048, 1024]⟩
abbrev S2048 : Shape := ⟨1, ![2048]⟩
abbrev S1024x1024 : Shape := ⟨2, ![1024, 1024]⟩
abbrev S1280x1024 : Shape := ⟨2, ![1280, 1024]⟩
abbrev S1024 : Shape := ⟨1, ![1024]⟩
abbrev S1024x1 : Shape := ⟨2, ![1024, 1]⟩
abbrev S1024x1280 : Shape := ⟨2, ![1024, 1280]⟩
abbrev S_ : Shape := ⟨0, ![]⟩
abbrev S2048x1 : Shape := ⟨2, ![2048, 1]⟩

abbrev nBuf : Space → Nat
  | .hbm => 24
  | .vmem => 8
  | .smem => 0
  | _ => 0

abbrev bufTy : (tb : Table) → Fin (tcTables nBuf tb) → BufTy
  | .hbm, ⟨0, _⟩ => ⟨S4x512x1024, .f32⟩
  | .hbm, ⟨1, _⟩ => ⟨S32000x1024, .f32⟩
  | .hbm, ⟨2, _⟩ => ⟨S4x512, .i32⟩
  | .hbm, ⟨3, _⟩ => ⟨S2048x1024, .f32⟩
  | .hbm, ⟨4, _⟩ => ⟨S2048x1024, .bf16⟩
  | .hbm, ⟨5, _⟩ => ⟨S2048, .i32⟩
  | .hbm, ⟨6, _⟩ => ⟨S2048, .f32⟩
  | .hbm, ⟨7, _⟩ => ⟨S_, .i32⟩
  | .hbm, ⟨8, _⟩ => ⟨S2048, .i32⟩
  | .hbm, ⟨9, _⟩ => ⟨S2048, .i1⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S2048x1, .i32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .f32⟩
  | .local _ .vmem, ⟨3, _⟩ => ⟨S1280x1024, .f32⟩
  | .local _ .vmem, ⟨4, _⟩ => ⟨S1024, .f32⟩
  | .local _ .vmem, ⟨5, _⟩ => ⟨S1024, .f32⟩
  | .local _ .vmem, ⟨6, _⟩ => ⟨S1024x1, .f32⟩
  | .local _ .vmem, ⟨7, _⟩ => ⟨S1024x1, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v29 : BitVec 1 := Scalar.cmpi .eq arg1 c24_i32
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x512x1024_S2048x1024 : S4x512x1024.ShapeCasts S2048x1024
  bitsLt_bf16_f32 : FTy.bits .bf16 < FTy.bits .f32
  shapeCasts_S4x512_S2048 : S4x512.ShapeCasts S2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1280x1024_S1280x1024_0_0 : ∀ a, (![0, 0] : Fin 2 → Nat) a + S1280x1024.size a ≤ S1280x1024.size a
  h_S1280x1024 : 0 < S1280x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1280_S1024 : S1024x1280.Reduces [1] S1024
  shapeCasts_S1024_S1024x1 : S1024.ShapeCasts S1024x1
  broadcasts_S1024x1_S1024x1280 : S1024x1.Broadcasts S1024x1280
  shapeCasts_S1024x1_S1024 : S1024x1.ShapeCasts S1024
  inb_S1024_S1024_0 : ∀ a, (![0] : Fin 1 → Nat) a + S1024.size a ≤ S1024.size a
  h_S1024 : 0 < S1024.numel
  bcast_S_S2048 : S_.BroadcastsInDim S2048 (![] : Fin 0 → Fin S2048.rank)
  bcast_S2048_S2048x1_0 : S2048.BroadcastsInDim S2048x1 (![0] : Fin 1 → Fin S2048x1.rank)
  reducesTo_S2048x1024_S2048_d1 : S2048x1024.ReducesTo [1] S2048
  h_S_ : 0 < S_.numel
  reducesTo_S2048_S_d0 : S2048.ReducesTo [0] S_
  dot_S1024x1024_S1280x1024_S1024x1280_1_1_0_0_n_n_wf : DotDims.WF S1024x1024 S1280x1024 S1024x1280 [1] [1] [0] [0] [] []
  gather_S32000x1024_S2048x1_S2048x1024_1_0_n_n_0_1_11024_wf : GatherDims.WF S32000x1024 S2048x1 S2048x1024 [1] [0] [] [0] [] 1 ![1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x1024.size a
  hwx0_0 : ∀ i : grid0.Coords, EltTy.bits .bf16 = 32 ∨ (Rect.block (s := S2048x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S32000x1024.size a
  hwx0_1 : ∀ i : grid0.Coords, EltTy.bits .f32 = 32 ∨ (Rect.block (s := S32000x1024) S1280x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S2048.size a
  hwx0_2 : ∀ i : grid0.Coords, EltTy.bits .f32 = 32 ∨ (Rect.block (s := S2048) S1024.size (cc0_transform_2 i) (hinb0_2 i)).WholeWords (EltTy.packing .f32)

variable [Facts₀]

def dot_S1024x1024_S1280x1024_S1024x1280_1_1_0_0_n_n : DotDims S1024x1024 S1280x1024 S1024x1280 where
  lhsContracting := [1]
  rhsContracting := [1]
  lhsNonContracting := [0]
  rhsNonContracting := [0]
  lhsBatch := []
  rhsBatch := []
  wf := dot_S1024x1024_S1280x1024_S1024x1280_1_1_0_0_n_n_wf
def gather_S32000x1024_S2048x1_S2048x1024_1_0_n_n_0_1_11024 : GatherDims S32000x1024 S2048x1 S2048x1024 where
  offsetDims := [1]
  collapsedSliceDims := [0]
  operandBatchingDims := []
  startIndicesBatchingDims := []
  startIndexMap := [0]
  indexVectorDim := 1
  sliceSizes := ![1, 1024]
  wf := gather_S32000x1024_S2048x1_S2048x1024_1_0_n_n_0_1_11024_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1280x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x512x1024 : Shape := ⟨3, ![4, 512, 1024]⟩
abbrev S32000x1024 : Shape := ⟨2, ![32000, 1024]⟩
abbrev S4x512 : Shape := ⟨2, ![4, 512]⟩
abbrev S4x512x32000 : Shape := ⟨3, ![4, 512, 32000]⟩
abbrev S2048x32000 : Shape := ⟨2, ![2048, 32000]⟩
abbrev S2048 : Shape := ⟨1, ![2048]⟩
abbrev S_ : Shape := ⟨0, ![]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S32000x1024, .f32⟩
  | .hbm, ⟨2, _⟩ => ⟨S4x512, .i32⟩
  | .hbm, ⟨3, _⟩ => ⟨S4x512x32000, .f32⟩
  | .hbm, ⟨4, _⟩ => ⟨S2048x32000, .f32⟩
  | .hbm, ⟨5, _⟩ => ⟨S2048, .i32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048x1, .f32⟩
  | .hbm, ⟨12, _⟩ => ⟨S2048x32000, .f32⟩
  | .hbm, ⟨13, _⟩ => ⟨S2048x32000, .f32⟩
  | .hbm, ⟨14, _⟩ => ⟨S2048x32000, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S2048x1, .f32⟩
  | .hbm, ⟨19, _⟩ => ⟨S2048x32000, .f32⟩
  | .hbm, ⟨20, _⟩ => ⟨S2048x32000, .f32⟩
  | .hbm, ⟨21, _⟩ => ⟨S2048x1, .i32⟩
  | .hbm, ⟨22, _⟩ => ⟨S_, .i32⟩
  | .hbm, ⟨23, _⟩ => ⟨S2048x1, .i32⟩
  | .hbm, ⟨24, _⟩ => ⟨S2048x1, .i1⟩
  | .hbm, ⟨25, _⟩ => ⟨S_, .i32⟩
  | .hbm, ⟨26, _⟩ => ⟨S2048x1, .i32⟩
  | .hbm, ⟨27, _⟩ => ⟨S2048x1, .i32⟩
  | .hbm, ⟨28, _⟩ => ⟨S2048x1, .i32⟩
  | .hbm, ⟨29, _⟩ => ⟨S2048x1x1, .i32⟩
  | .hbm, ⟨30, _⟩ => ⟨S1, .i32⟩
  | .hbm, ⟨31, _⟩ => ⟨S_, .i32⟩
  | .hbm, ⟨32, _⟩ => ⟨S2048x1x1, .i32⟩
  | .hbm, ⟨33, _⟩ => ⟨S2048x1x1, .i1⟩
  | .hbm, ⟨34, _⟩ => ⟨S1x1x1, .i32⟩
  | .hbm, ⟨35, _⟩ => ⟨S2048x1x1, .i32⟩
  | .hbm, ⟨36, _⟩ => ⟨S2048x1x1, .i1⟩
  | .hbm, ⟨37, _⟩ => ⟨S2048x1x1, .i1⟩
  | .hbm, ⟨38, _⟩ => ⟨S_, .i1⟩
  | .hbm, ⟨39, _⟩ => ⟨S2048x1, .i1⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048, .f32⟩
  | .hbm, ⟨45, _⟩ => ⟨S2048, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v3 : Ref sig .tc := ⟨.hbm, 20, rfl⟩
abbrev main_v4 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_cst : Ref sig .tc := ⟨.hbm, 46, rfl⟩
abbrev main_v8 : Ref sig .tc := ⟨.hbm, 47, rfl⟩
abbrev main_cst_0 : Ref sig .tc := ⟨.hbm, 48, rfl⟩
abbrev main_v9 : Ref sig .tc := ⟨.hbm, 49, rfl⟩

abbrev nD : Nat := 1
abbrev τ : Topo := Topo.v7x

variable {F : FTy → Type} [FloatOps F]

class Facts₀ : Prop where
  shapeCasts_S4x512x32000_S2048x32000 : S4x512x32000.ShapeCasts S2048x32000
  shapeCasts_S4x512_S2048 : S4x512.ShapeCasts S2048
  reducesTo_S2048x32000_S2048_d1 : S2048x32000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  dot_S4x512x1024_S32000x1024_S4x512x32000_2_1_01_0_n_n_wf : DotDims.WF S4x512x1024 S32000x1024 S4x512x32000 [2] [1] [0, 1] [0] [] []
  gather_S2048x32000_S2048x1x1_S2048x1_n_1_0_0_1_2_11_wf : GatherDims.WF S2048x32000 S2048x1x1 S2048x1 [] [1] [0] [1] [0] 2 ![1, 1]

variable [Facts₀]

def dot_S4x512x1024_S32000x1024_S4x512x32000_2_1_01_0_n_n : DotDims S4x512x1024 S32000x1024 S4x512x32000 where
  lhsContracting := [2]
  rhsContracting := [1]
  lhsNonContracting := [0, 1]
  rhsNonContracting := [0]
  lhsBatch := []
  rhsBatch := []
  wf := dot_S4x512x1024_S32000x1024_S4x512x32000_2_1_01_0_n_n_wf
def gather_S2048x32000_S2048x1x1_S2048x1_n_1_0_0_1_2_11 : GatherDims S2048x32000 S2048x1x1 S2048x1 where
  offsetDims := []
  collapsedSliceDims := [1]
  operandBatchingDims := [0]
  startIndicesBatchingDims := [0]
  startIndexMap := [1]
  indexVectorDim := 2
  sliceSizes := ![1, 1]
  wf := gather_S2048x32000_S2048x1x1_S2048x1_n_1_0_0_1_2_11_wf

class Facts : Prop extends Facts₀ where

variable [Facts]
-- ==== Proof.KernelPieces.lean ====
import proofs.«410185_j81827716923879_3_alg».proof.Proof.Gen.KernelIdeal.Frame
import Idealize.ShloMosaic.Lib.Pipeline.Value
import Idealize.ShloMosaic.Lib.Tactic

/-!
What each control case of the kernel body leaves behind, as the body's own arithmetic.

The body keeps two columns across the vocabulary tiles of one row block: the running row maximum and the running
rescaled sum. At the first tile it resets them to −∞ and 0 and then updates them; at every later tile it updates what
the tile before left; at the last tile it also writes `maximum + log sum` into the output block.
-/

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- First tile: the maximum column ends at the update of the reset value −∞ by the tile's logits. -/
theorem max_first (c : Dev nD) (i : grid0.Coords) (arg2 : Memref sig .tc .vmem S1024x1024 .bf16) (harg2 : arg2.IsWhole) (arg3 : Memref sig .tc .vmem S1280x1024 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x1024 .bf16) (x1 : Vec F S1280x1024 .f32) :
    sout0_A_0 c i arg2 harg2 arg3 harg3 arg4 harg4 arg5 harg5 arg6 harg6 hc0 hc1 x0 x1 = k0_pay6 x1 x0 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1024x1) hz2]
  simp only [View.readAt_eq_ld, harg2.read_unread, harg3.read_unread, harg4.read_unread, harg5.read_unread, harg6.read_unread, View.ld_unit_zero (S := S1280x1024) hz2, View.ld_unit_zero (S := S1024x1024) hz2, View.ld_unit_zero (S := S1024x1) hz2, View.readCov_unit_zero (S := S1024x1) _ hz2]

/-- First tile: the sum column ends at the update of the reset values (−∞, 0). -/
theorem sum_first (c : Dev nD) (i : grid0.Coords) (arg2 : Memref sig .tc .vmem S1024x1024 .bf16) (harg2 : arg2.IsWhole) (arg3 : Memref sig .tc .vmem S1280x1024 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x1024 .bf16) (x1 : Vec F S1280x1024 .f32) :
    sout0_A_1 c i arg2 harg2 arg3 harg3 arg4 harg4 arg5 harg5 arg6 harg6 hc0 hc1 x0 x1 = k0_pay5 x1 x0 (k0_pay1 (F := F)) (k0_pay1 (F := F)) (k0_pay2 (F := F)) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S1024x1) hz2]
  simp only [View.readAt_eq_ld, harg2.read_unread, harg3.read_unread, harg4.read_unread, harg5.read_unread, harg6.read_unread, View.ld_unit_zero (S := S1280x1024) hz2, View.ld_unit_zero (S := S1024x1024) hz2, View.ld_unit_zero (S := S1024x1) hz2, View.readCov_unit_zero (S := S1024x1) _ hz2]

/-- A middle tile: the maximum column is updated from what the tile before left. -/
theorem max_mid (c : Dev nD) (i : grid0.Coords) (arg2 : Memref sig .tc .vmem S1024x1024 .bf16) (harg2 : arg2.IsWhole) (arg3 : Memref sig .tc .vmem S1280x1024 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x1024 .bf16) (x1 : Vec F S1280x1024 .f32) (xs0 xs1 : Vec F S1024x1 .f32) :
    sout0_B_0 c i arg2 harg2 arg3 harg3 arg4 harg4 arg5 harg5 arg6 harg6 hc0 hc1 x0 x1 xs0 xs1 = k0_pay6 x1 x0 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, harg4.read_unread, harg5.read_unread, harg6.read_unread, View.ld_unit_zero (S := S1280x1024) hz2, View.ld_unit_zero (S := S1024x1024) hz2, View.ld_unit_zero (S := S1024x1) hz2, View.readCov_unit_zero (S := S1024x1) _ hz2]

/-- A middle tile: the sum column likewise. -/
theorem sum_mid (c : Dev nD) (i : grid0.Coords) (arg2 : Memref sig .tc .vmem S1024x1024 .bf16) (harg2 : arg2.IsWhole) (arg3 : Memref sig .tc .vmem S1280x1024 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x1024 .bf16) (x1 : Vec F S1280x1024 .f32) (xs0 xs1 : Vec F S1024x1 .f32) :
    sout0_B_1 c i arg2 harg2 arg3 harg3 arg4 harg4 arg5 harg5 arg6 harg6 hc0 hc1 x0 x1 xs0 xs1 = k0_pay5 x1 x0 xs0 xs0 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, harg4.read_unread, harg5.read_unread, harg6.read_unread, View.ld_unit_zero (S := S1280x1024) hz2, View.ld_unit_zero (S := S1024x1024) hz2, View.ld_unit_zero (S := S1024x1) hz2, View.readCov_unit_zero (S := S1024x1) _ hz2]

/-- The last tile: the maximum column. -/
theorem max_last (c : Dev nD) (i : grid0.Coords) (arg2 : Memref sig .tc .vmem S1024x1024 .bf16) (harg2 : arg2.IsWhole) (arg3 : Memref sig .tc .vmem S1280x1024 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x1024 .bf16) (x1 : Vec F S1280x1024 .f32) (xs0 xs1 : Vec F S1024x1 .f32) :
    sout0_C_0 c i arg2 harg2 arg3 harg3 arg4 harg4 arg5 harg5 arg6 harg6 hc0 hc1 x0 x1 xs0 xs1 = k0_pay6 x1 x0 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg2.read_unread, harg3.read_unread, harg4.read_unread, harg5.read_unread, harg6.read_unread, View.ld_unit_zero (S := S1280x1024) hz2, View.ld_unit_zero (S := S1024x1024) hz2, View.ld_unit_zero (S := S1024x1) hz2, View.readCov_unit_zero (S := S1024x1) _ hz2]

/-- The last tile: the sum column. -/
theorem sum_last (c : Dev nD) (i : grid0.Coords) (arg2 : Memref sig .tc .vmem S1024x1024 .bf16) (harg2 : arg2.IsWhole) (arg3 : Memref sig .tc .vmem S1280x1024 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x1024 .bf16) (x1 : Vec F S1280x1024 .f32) (xs0 xs1 : Vec F S1024x1 .f32) :
    sout0_C_1 c i arg2 harg2 arg3 harg3 arg4 harg4 arg5 harg5 arg6 harg6 hc0 hc1 x0 x1 xs0 xs1 = k0_pay5 x1 x0 xs0 xs0 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg2.read_unread, harg3.read_unread, harg4.read_unread, harg5.read_unread, harg6.read_unread, View.ld_unit_zero (S := S1280x1024) hz2, View.ld_unit_zero (S := S1024x1024) hz2, View.ld_unit_zero (S := S1024x1) hz2, View.readCov_unit_zero (S := S1024x1) _ hz2]

/-- The last tile: the output block is `maximum + log sum` of the two columns just updated. -/
theorem out_last (c : Dev nD) (i : grid0.Coords) (arg2 : Memref sig .tc .vmem S1024x1024 .bf16) (harg2 : arg2.IsWhole) (arg3 : Memref sig .tc .vmem S1280x1024 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x1024 .bf16) (x1 : Vec F S1280x1024 .f32) (xs0 xs1 : Vec F S1024x1 .f32) :
    out0_C_2 c i arg2 harg2 arg3 harg3 arg4 harg4 arg5 harg5 arg6 harg6 hc0 hc1 x0 x1 xs0 xs1 = k0_pay7 (k0_pay6 x1 x0 xs0) (k0_pay5 x1 x0 xs0 xs0 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz1]
  simp only [View.readAt_eq_ld, harg2.read_unread, harg3.read_unread, harg4.read_unread, harg5.read_unread, harg6.read_unread, View.ld_unit_zero (S := S1280x1024) hz2, View.ld_unit_zero (S := S1024x1024) hz2, View.ld_unit_zero (S := S1024x1) hz2, View.readCov_unit_zero (S := S1024x1) _ hz2]

end Cert.KernelIdeal.Pieces

end
-- ==== Proof.LseSpec.lean ====
import Idealize.ShloMosaic.PureOps.Ideal
import Idealize.ShloMosaic.Lib.ValueIdx

/-!
The two sides of the claim as pure functions on the extended reals.

A row of logits is `ℓ v = ∑ₖ X r k * W v k` over the 32000 vocabulary entries. The kernel never holds a whole row: it
walks the vocabulary in 25 tiles of 1280 and carries, per row, the pair (running maximum `m`, running sum `l` of
`exp (ℓ v - m)` over the entries seen), rescaling `l` by `exp (m_old - m_new)` at each tile; after the last tile
`m + log l` is the row's log-sum-exp. The reference takes the row's maximum `M`, the sum `S = ∑ᵥ exp (ℓ v - M)`, and
`(ℓ u - M) - log S` at the label `u`, negated. Both then average over the 2048 rows.
-/

noncomputable section

namespace Cert.Lse

open Idealize.ShloMosaic Idealize.ShloMosaic.ValueIdx

/-- The vocabulary entry that lane `q` of tile `j` holds: `1280 j + q` (total in `j`; the 25 tiles are `j < 25`). -/
def vocab (j : ℕ) (q : Fin 1280) : Fin 32000 := ⟨(1280 * j + q.val) % 32000, Nat.mod_lt _ (by norm_num)⟩

/-- One tile's update of the pair (running maximum, running rescaled sum) by the tile's 1280 logits `s`. -/
def tileStep (s : Fin 1280 → EReal) (p : EReal × EReal) : EReal × EReal :=
  (max p.1 (Finset.univ.fold max ⊥ s),
   Ideal.exp (p.1 - max p.1 (Finset.univ.fold max ⊥ s)) * p.2
     + ∑ q : Fin 1280, Ideal.exp (s q - max p.1 (Finset.univ.fold max ⊥ s)))

/-- The pair after tiles `0 … j` of a row whose tile `j` holds the logits `a j`, from (−∞, 0). -/
def runPair (a : ℕ → Fin 1280 → EReal) : ℕ → EReal × EReal
  | 0 => tileStep (a 0) (⊥, 0)
  | j + 1 => tileStep (a (j + 1)) (runPair a j)

/-- Row `r` of the activations, the leading two axes flattened: `r = 512 b + l`. -/
def rowsOf (x : (⟨3, ![4, 512, 1024]⟩ : Shape).Idx → EReal) (r : Fin 2048) (k : Fin 1024) : EReal :=
  x (ix3 (⟨r.val / 512, by have := r.isLt; omega⟩ : Fin 4) (⟨r.val % 512, Nat.mod_lt _ (by norm_num)⟩ : Fin 512) k)

/-- Row `v` of the classifier weights. -/
def colsOf (w : (⟨2, ![32000, 1024]⟩ : Shape).Idx → EReal) (v : Fin 32000) (k : Fin 1024) : EReal := w (ix2 v k)

/-- A label with numpy's wrap-around of a negative index. -/
def wrapLabel (b : BitVec 32) : BitVec 32 := if IntOp.cmpi .slt b 0#32 = 1#1 then b + 32000#32 else b

/-- The weight row a label selects: the wrapped label, read signed, clamped into the table. -/
def labelOf (lab : (⟨2, ![4, 512]⟩ : Shape).Idx → BitVec 32) (r : Fin 2048) : Fin 32000 :=
  ⟨min (wrapLabel (lab (ix2 (⟨r.val / 512, by have := r.isLt; omega⟩ : Fin 4) (⟨r.val % 512, Nat.mod_lt _ (by norm_num)⟩ : Fin 512)))).toInt.toNat 31999,
    by omega⟩

/-- The logit of row `r` at vocabulary entry `v`. -/
def logit (X : Fin 2048 → Fin 1024 → EReal) (W : Fin 32000 → Fin 1024 → EReal) (r : Fin 2048) (v : Fin 32000) : EReal :=
  ∑ k : Fin 1024, X r k * W v k

/-- The kernel's per-row term: the tiled log-sum-exp minus the target logit (a host sum from 0). -/
def kernelRow (X : Fin 2048 → Fin 1024 → EReal) (W : Fin 32000 → Fin 1024 → EReal) (r : Fin 2048) (u : Fin 32000) : EReal :=
  ((runPair (fun j q => logit X W r (vocab j q)) 24).1 + Ideal.log (runPair (fun j q => logit X W r (vocab j q)) 24).2)
    - (0 + ∑ k : Fin 1024, X r k * W u k)

/-- The row's maximum as the reference takes it. -/
def refMax (X : Fin 2048 → Fin 1024 → EReal) (W : Fin 32000 → Fin 1024 → EReal) (r : Fin 2048) : EReal :=
  max ⊥ (Finset.univ.fold max ⊥ (fun v : Fin 32000 => logit X W r v))

/-- The reference's per-row term: minus the log-softmax at the label. -/
def refRow (X : Fin 2048 → Fin 1024 → EReal) (W : Fin 32000 → Fin 1024 → EReal) (r : Fin 2048) (u : Fin 32000) : EReal :=
  -((logit X W r u - refMax X W r) - Ideal.log (0 + ∑ v : Fin 32000, Ideal.exp (logit X W r v - refMax X W r)))

/-- The kernel's result: the mean of its per-row terms (a host sum from 0, divided by the row count `c`). -/
def kernelLoss (c : EReal) (X : Fin 2048 → Fin 1024 → EReal) (W : Fin 32000 → Fin 1024 → EReal) (u : Fin 2048 → Fin 32000) : EReal :=
  Ideal.div (0 + ∑ r : Fin 2048, kernelRow X W r (u r)) c

/-- The reference's result, likewise. -/
def refLoss (c : EReal) (X : Fin 2048 → Fin 1024 → EReal) (W : Fin 32000 → Fin 1024 → EReal) (u : Fin 2048 → Fin 32000) : EReal :=
  Ideal.div (0 + ∑ r : Fin 2048, refRow X W r (u r)) c

end Cert.Lse

end
-- ==== Proof.LibColumn.lean ====
import Idealize.ShloMosaic.Lib.ValueIdx
import Idealize.ShloMosaic.Lib.Pipeline.Value

/-!
Column vectors read at an index: a length-`a` vector as an `[a, 1]` column and back, and a column broadcast along the rows
of an `[a, b]` array. (The row forms `[a] ↔ [1, a]` and `[1, b] → [a, b]` are the library's; these are their transposes.)
-/

namespace Idealize.ShloMosaic.ValueColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueColumn
-- ==== Proof.KernelPay.lean ====
import proofs.«410185_j81827716923879_3_alg».proof.Proof.Gen.KernelIdeal.Skeleton
import proofs.«410185_j81827716923879_3_alg».proof.Proof.LseSpec
import proofs.«410185_j81827716923879_3_alg».proof.Proof.LibColumn
import Idealize.ShloMosaic.PureOps.Ideal.Laws
import Idealize.ShloMosaic.Lib.ValueIdx
import Idealize.ShloMosaic.Lib.Pipeline.Value

/-!
The body's arithmetic read at one row `p` of the block, over the extended reals.

`s q = ∑ₖ cell p k * w q k` are the row's 1280 logits of this tile (the block product; the change of float format is the
identity here). The new maximum is `max m (max_q s q)`, the new sum `exp (m - m') * l + ∑_q exp (s q - m')`, and the
block written at the last tile `m + log l`: one step of the tiled recurrence on that row.
-/

noncomputable section

open Idealize.ShloMosaic Idealize.ShloMosaic.ValueIdx Idealize.ShloMosaic.ValueColumn

namespace Cert.KernelIdeal.Pay

open Cert.KernelIdeal Cert.KernelIdeal.Gen

/-! ## The block product -/

theorem lhs_axis0 (i : S1024x1280.Idx) (q : dot_S1024x1024_S1280x1024_S1024x1280_1_1_0_0_n_n.contr.Idx) : (dot_S1024x1024_S1280x1024_S1024x1280_1_1_0_0_n_n.lhsIdx i q 0).val = (i 0).val := by
  unfold DotDims.lhsIdx
  rw [dif_neg (show ¬(0 : Fin S1024x1024.rank) ∈ dot_S1024x1024_S1280x1024_S1024x1280_1_1_0_0_n_n.lhsBatch by decide), dif_pos (show (0 : Fin S1024x1024.rank) ∈ dot_S1024x1024_S1280x1024_S1024x1280_1_1_0_0_n_n.lhsNonContracting by decide)]
  rfl
theorem lhs_axis1 (i : S1024x1280.Idx) (q : dot_S1024x1024_S1280x1024_S1024x1280_1_1_0_0_n_n.contr.Idx) : (dot_S1024x1024_S1280x1024_S1024x1280_1_1_0_0_n_n.lhsIdx i q 1).val = (q ⟨0, by decide⟩).val :=
  dot_S1024x1024_S1280x1024_S1024x1280_1_1_0_0_n_n.lhsIdx_val_of_single rfl i q
theorem rhs_axis0 (i : S1024x1280.Idx) (q : dot_S1024x1024_S1280x1024_S1024x1280_1_1_0_0_n_n.contr.Idx) : (dot_S1024x1024_S1280x1024_S1024x1280_1_1_0_0_n_n.rhsIdx i q 0).val = (i 1).val := by
  unfold DotDims.rhsIdx
  rw [dif_neg (show ¬(0 : Fin S1280x1024.rank) ∈ dot_S1024x1024_S1280x1024_S1024x1280_1_1_0_0_n_n.rhsBatch by decide), dif_pos (show (0 : Fin S1280x1024.rank) ∈ dot_S1024x1024_S1280x1024_S1024x1280_1_1_0_0_n_n.rhsNonContracting by decide)]
  rfl
theorem rhs_axis1 (i : S1024x1280.Idx) (q : dot_S1024x1024_S1280x1024_S1024x1280_1_1_0_0_n_n.contr.Idx) : (dot_S1024x1024_S1280x1024_S1024x1280_1_1_0_0_n_n.rhsIdx i q 1).val = (q ⟨0, by decide⟩).val :=
  dot_S1024x1024_S1280x1024_S1024x1280_1_1_0_0_n_n.rhsIdx_val_of_single rfl i q

/-- The tile's logit of row `p` at lane `q`: the row of the activations against row `q` of the weight block. -/
theorem pay3_apply (v3 : Vec Ideal S1280x1024 .f32) (v5 : Vec Ideal S1024x1024 .bf16) (p : Fin 1024) (q : Fin 1280) :
    k0_pay3 (F := Ideal) v3 v5 (ix2 p q) = ∑ k : Fin 1024, v5 (ix2 p k) * v3 (ix2 q k) := by
  unfold k0_pay3
  simp only [matmul]
  rw [Ideal.matmul_constant_zero_apply, ← Equiv.sum_comp (ValueIdx.contrEquiv1 dot_S1024x1024_S1280x1024_S1024x1280_1_1_0_0_n_n 1024 rfl rfl).symm]
  refine Finset.sum_congr rfl fun k _ => ?_
  have hk := ValueIdx.contrEquiv1_symm_val dot_S1024x1024_S1280x1024_S1024x1280_1_1_0_0_n_n 1024 rfl rfl k
  have el : dot_S1024x1024_S1280x1024_S1024x1280_1_1_0_0_n_n.lhsIdx (ix2 p q) ((ValueIdx.contrEquiv1 dot_S1024x1024_S1280x1024_S1024x1280_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1280x1024_S1024x1280_1_1_0_0_n_n.rhsIdx (ix2 p q) ((ValueIdx.contrEquiv1 dot_S1024x1024_S1280x1024_S1024x1280_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er, shapeCast_self]
  rfl

/-! ## The two reset values -/

theorem negInf : Ideal.ofBits .f32 0xFF800000#32 = (⊥ : EReal) := by simp [Ideal.ofBits, Ideal.ieee]

theorem pay1_apply (j : S1024x1.Idx) : k0_pay1 (F := Ideal) j = (⊥ : EReal) := by
  unfold k0_pay1
  rw [shapeCast_self]
  exact negInf

theorem pay2_apply (j : S1024x1.Idx) : k0_pay2 (F := Ideal) j = (0 : EReal) := by
  unfold k0_pay2
  rw [shapeCast_self]
  exact Ideal.ofBits_zero_f32

/-! ## The lane reductions: a lane of row `p` put back on the reduced index -/

theorem lift_row (p : Fin 1024) (k : Fin 1280) : reduces_S1024x1280_S1024.lift (ix1 p) k = ix2 p k :=
  funext fun a => Fin.ext (by
    match a with
    | ⟨0, _⟩ => rfl
    | ⟨1, _⟩ => rfl)

/-- The new running maximum at row `p`. -/
theorem pay4_apply (v3 : Vec Ideal S1280x1024 .f32) (v5 : Vec Ideal S1024x1024 .bf16) (v8 : Vec Ideal S1024x1 .f32) (p : Fin 1024) :
    k0_pay4 (F := Ideal) v3 v5 v8 (ix2 p (0 : Fin 1))
      = max (v8 (ix2 p (0 : Fin 1))) (Finset.univ.fold max (⊥ : EReal) (fun q : Fin 1280 => k0_pay3 (F := Ideal) v3 v5 (ix2 p q))) := by
  unfold k0_pay4
  rw [maximumf_apply, shapeCast_a_a1_apply]
  refine congrArg (max (v8 (ix2 p (0 : Fin 1)))) ?_
  refine (Ideal.multiReduction_maximumf_single (k0_pay3 (F := Ideal) v3 v5) 0xFF800000#32 reduces_S1024x1280_S1024 _ _ (ix1 p)).trans ?_
  show Finset.univ.fold max (Ideal.ofBits .f32 0xFF800000#32) (fun k : Fin 1280 => k0_pay3 (F := Ideal) v3 v5 (reduces_S1024x1280_S1024.lift (ix1 p) k)) = _
  rw [negInf]
  simp only [lift_row]

/-- The maximum column as stored is that maximum. -/
theorem pay6_eq {F : FTy → Type} [FloatOps F] (v3 : Vec F S1280x1024 .f32) (v5 : Vec F S1024x1024 .bf16) (v8 : Vec F S1024x1 .f32) :
    k0_pay6 v3 v5 v8 = k0_pay4 v3 v5 v8 := by
  unfold k0_pay6
  exact shapeCast_self _ _

/-- The new running sum at row `p`. -/
theorem pay5_apply (v3 : Vec Ideal S1280x1024 .f32) (v5 : Vec Ideal S1024x1024 .bf16) (v8 v12 v18 : Vec Ideal S1024x1 .f32) (p : Fin 1024) :
    k0_pay5 (F := Ideal) v3 v5 v8 v12 v18 (ix2 p (0 : Fin 1))
      = Ideal.exp (v12 (ix2 p (0 : Fin 1)) - k0_pay4 (F := Ideal) v3 v5 v8 (ix2 p (0 : Fin 1))) * v18 (ix2 p (0 : Fin 1))
        + ∑ q : Fin 1280, Ideal.exp (k0_pay3 (F := Ideal) v3 v5 (ix2 p q) - k0_pay4 (F := Ideal) v3 v5 v8 (ix2 p (0 : Fin 1))) := by
  unfold k0_pay5
  rw [shapeCast_self, addf_apply, mulf_apply, shapeCast_a_a1_apply]
  refine congrArg₂ (fun a b : EReal => a + b) rfl ?_
  refine (Ideal.multiReduction_add_single
    (exp (subf (k0_pay3 (F := Ideal) v3 v5) (broadcastTo S1024x1280 (k0_pay4 (F := Ideal) v3 v5 v8) broadcasts_S1024x1_S1024x1280)))
    0x00000000#32 reduces_S1024x1280_S1024 _ _ (ix1 p)).trans ?_
  show ∑ k : Fin 1280, Ideal.exp (k0_pay3 (F := Ideal) v3 v5 (reduces_S1024x1280_S1024.lift (ix1 p) k)
          - broadcastTo S1024x1280 (k0_pay4 (F := Ideal) v3 v5 v8) broadcasts_S1024x1_S1024x1280 (reduces_S1024x1280_S1024.lift (ix1 p) k)) = _
  simp only [lift_row, broadcastTo_a1_ab_apply]

/-- The block written at the last tile, at row `p`. -/
theorem pay7_apply (v32 v33 : Vec Ideal S1024x1 .f32) (p : Fin 1024) :
    k0_pay7 (F := Ideal) v32 v33 (ix1 p) = v32 (ix2 p (0 : Fin 1)) + Ideal.log (v33 (ix2 p (0 : Fin 1))) := by
  unfold k0_pay7
  rw [shapeCast_a1_a_apply]
  rfl

/-- One tile's update of the two columns at row `p` is one step of the tiled recurrence on the row's logits. -/
theorem step_eq (v3 : Vec Ideal S1280x1024 .f32) (v5 : Vec Ideal S1024x1024 .bf16) (xs0 xs1 : Vec Ideal S1024x1 .f32) (p : Fin 1024) :
    (k0_pay6 (F := Ideal) v3 v5 xs0 (ix2 p (0 : Fin 1)), k0_pay5 (F := Ideal) v3 v5 xs0 xs0 xs1 (ix2 p (0 : Fin 1)))
      = Cert.Lse.tileStep (fun q : Fin 1280 => k0_pay3 (F := Ideal) v3 v5 (ix2 p q)) (xs0 (ix2 p (0 : Fin 1)), xs1 (ix2 p (0 : Fin 1))) := by
  rw [pay6_eq, pay5_apply, pay4_apply]
  rfl

end Cert.KernelIdeal.Pay

end
-- ==== Proof.KernelInv.lean ====
import proofs.«410185_j81827716923879_3_alg».proof.Proof.KernelPieces
import proofs.«410185_j81827716923879_3_alg».proof.Proof.KernelPay

/-!
The two columns the kernel carries across the vocabulary tiles, point by point.

Grid point `n` is row block `n / 25` and vocabulary tile `n % 25`. Row `p` of the activations block at that point is row
`1024 (n / 25) + p` of the activations, row `q` of the weight block is weight row `1280 (n % 25) + q`; so the tile's
logits of row `p` are the logits of that activations row at those 1280 vocabulary entries. By induction on the point,
after point `n` the two columns hold, at row `p`, the pair the tiled recurrence reaches after tiles `0 … n % 25` of
that row: the first tile of a row block starts from (−∞, 0), every later tile from what the point before left.
-/

noncomputable section

open Idealize.ShloMosaic Idealize.ShloMosaic.TcCoe Idealize.SL.Sem Idealize.ShloMosaic.ValueIdx

namespace Cert.KernelIdeal.Inv

open Cert.KernelIdeal Cert.KernelIdeal.Gen

variable (m : (ℓ : Loc nD τ sig) → Buf (Elt Ideal) ℓ)

/-- The activations as the region finds them (already flattened to rows), and the weights. -/
abbrev cellArr (c : Dev nD) : Vec Ideal S2048x1024 .bf16 := V m c main_v1
abbrev wArr (c : Dev nD) : Vec Ideal S32000x1024 .f32 := V m c main_arg1
/-- Their blocks at a grid point. -/
abbrev cellBlk (c : Dev nD) (t : Fin cfg0.N) : Vec Ideal S1024x1024 .bf16 := iblk m c 0 t
abbrev wBlk (c : Dev nD) (t : Fin cfg0.N) : Vec Ideal S1280x1024 .f32 := iblk m c 1 t

/-- The activations by row and the weights by vocabulary entry. -/
def XK (c : Dev nD) (r : Fin 2048) (k : Fin 1024) : EReal := cellArr m c (ix2 r k)
def WK (c : Dev nD) (v : Fin 32000) (k : Fin 1024) : EReal := wArr m c (ix2 v k)

theorem N50 : cfg0.N = 50 := N_0

/-- The activations row that row `p` of the block at point `t` is. -/
def rowAt (t : Fin cfg0.N) (p : Fin 1024) : Fin 2048 :=
  ⟨1024 * (t.val / 25) + p.val, by have := t.isLt; have := N50; have := p.isLt; omega⟩

/-- The windows' block indices over the grid: the row block and the vocabulary tile. -/
theorem idx_cell : ∀ t : Fin cfg0.N, win0_0.index t (0 : Fin 2) = t.val / 25 ∧ win0_0.index t (1 : Fin 2) = 0 :=
  (by decide +kernel : ∀ t : Fin grid0.N, win0_0.index t (0 : Fin 2) = t.val / 25 ∧ win0_0.index t (1 : Fin 2) = 0)
theorem idx_w : ∀ t : Fin cfg0.N, win0_1.index t (0 : Fin 2) = t.val % 25 ∧ win0_1.index t (1 : Fin 2) = 0 :=
  (by decide +kernel : ∀ t : Fin grid0.N, win0_1.index t (0 : Fin 2) = t.val % 25 ∧ win0_1.index t (1 : Fin 2) = 0)

/-- The activations block read at (p, k). -/
theorem cellBlk_apply (c : Dev nD) (t : Fin cfg0.N) (p k : Fin 1024) :
    cellBlk m c t (ix2 p k) = cellArr m c (ix2 (rowAt t p) k) := by
  show iblk m c 0 t (ix2 p k) = V m c main_v1 (ix2 (rowAt t p) k)
  unfold iblk
  rw [View.read_apply]
  show V m c main_v1 _ = V m c main_v1 _
  congr 1
  funext a
  apply Fin.ext
  match a with
  | ⟨0, _⟩ => show win0_0.index t 0 * 1024 + 1 * p.val = 1024 * (t.val / 25) + p.val; rw [(idx_cell t).1]; omega
  | ⟨1, _⟩ => show win0_0.index t 1 * 1024 + 1 * k.val = k.val; rw [(idx_cell t).2]; omega

/-- The weight block read at (q, k). -/
theorem wBlk_apply (c : Dev nD) (t : Fin cfg0.N) (q : Fin 1280) (k : Fin 1024) :
    wBlk m c t (ix2 q k) = wArr m c (ix2 (Cert.Lse.vocab (t.val % 25) q) k) := by
  show iblk m c 1 t (ix2 q k) = V m c main_arg1 (ix2 (Cert.Lse.vocab (t.val % 25) q) k)
  unfold iblk
  rw [View.read_apply]
  show V m c main_arg1 _ = V m c main_arg1 _
  congr 1
  funext a
  apply Fin.ext
  match a with
  | ⟨0, _⟩ =>
    show win0_1.index t 0 * 1280 + 1 * q.val = (1280 * (t.val % 25) + q.val) % 32000
    rw [(idx_w t).1]; have := q.isLt; omega
  | ⟨1, _⟩ => show win0_1.index t 1 * 1024 + 1 * k.val = k.val; rw [(idx_w t).2]; omega

/-- The tile's logits of row `p` at point `t` are that activations row's logits at the tile's vocabulary entries. -/
theorem tile_logits (c : Dev nD) (t : Fin cfg0.N) (p : Fin 1024) :
    (fun q : Fin 1280 => k0_pay3 (F := Ideal) (wBlk m c t) (cellBlk m c t) (ix2 p q))
      = fun q : Fin 1280 => Cert.Lse.logit (XK m c) (WK m c) (rowAt t p) (Cert.Lse.vocab (t.val % 25) q) := by
  funext q
  rw [Pay.pay3_apply]
  unfold Cert.Lse.logit XK WK
  refine Finset.sum_congr rfl fun k _ => ?_
  rw [cellBlk_apply, wBlk_apply]

/-- At the first tile of a row block the columns end at one step from (−∞, 0). -/
theorem pair_first (c : Dev nD) (t : Fin cfg0.N) (h0 : t.val % 25 = 0) (h1 : ¬t.val % 25 = 24) (p : Fin 1024) :
    ((outsAt0 m c t.val t.isLt).2.1 (ix2 p (0 : Fin 1)), (outsAt0 m c t.val t.isLt).2.2 (ix2 p (0 : Fin 1)))
      = Cert.Lse.tileStep (fun q : Fin 1280 => Cert.Lse.logit (XK m c) (WK m c) (rowAt t p) (Cert.Lse.vocab (t.val % 25) q)) (⊥, 0) := by
  rw [outsAt0_A m c t h0 h1]
  dsimp only
  refine (congrArg₂ Prod.mk
    (congrFun (Pieces.max_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)) (ix2 p (0 : Fin 1)))
    (congrFun (Pieces.sum_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)) (ix2 p (0 : Fin 1)))).trans ?_
  refine (Pay.step_eq (wBlk m c t) (cellBlk m c t) (k0_pay1 (F := Ideal)) (k0_pay2 (F := Ideal)) p).trans ?_
  rw [tile_logits, Pay.pay1_apply, Pay.pay2_apply]

/-- At a later tile they end at one step from what the point before left. -/
theorem pair_next (c : Dev nD) (t : Fin cfg0.N) (h0 : ¬t.val % 25 = 0) (p : Fin 1024) :
    ((outsAt0 m c t.val t.isLt).2.1 (ix2 p (0 : Fin 1)), (outsAt0 m c t.val t.isLt).2.2 (ix2 p (0 : Fin 1)))
      = Cert.Lse.tileStep (fun q : Fin 1280 => Cert.Lse.logit (XK m c) (WK m c) (rowAt t p) (Cert.Lse.vocab (t.val % 25) q))
          ((outsAt0 m c (t.val - 1) (Nat.lt_of_le_of_lt (Nat.sub_le _ _) t.isLt)).2.1 (ix2 p (0 : Fin 1)), (outsAt0 m c (t.val - 1) (Nat.lt_of_le_of_lt (Nat.sub_le _ _) t.isLt)).2.2 (ix2 p (0 : Fin 1))) := by
  by_cases h1 : t.val % 25 = 24
  · rw [outsAt0_C m c t h0 h1]
    dsimp only
    refine (congrArg₂ Prod.mk
      (congrFun (Pieces.max_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1)))
      (congrFun (Pieces.sum_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1)))).trans ?_
    refine (Pay.step_eq (wBlk m c t) (cellBlk m c t) (outsAt0 m c (t.val - 1) (Nat.lt_of_le_of_lt (Nat.sub_le _ _) t.isLt)).2.1 (outsAt0 m c (t.val - 1) (Nat.lt_of_le_of_lt (Nat.sub_le _ _) t.isLt)).2.2 p).trans ?_
    rw [tile_logits]
  · rw [outsAt0_B m c t h0 h1]
    dsimp only
    refine (congrArg₂ Prod.mk
      (congrFun (Pieces.max_mid (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1)))
      (congrFun (Pieces.sum_mid (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1)))).trans ?_
    refine (Pay.step_eq (wBlk m c t) (cellBlk m c t) (outsAt0 m c (t.val - 1) (Nat.lt_of_le_of_lt (Nat.sub_le _ _) t.isLt)).2.1 (outsAt0 m c (t.val - 1) (Nat.lt_of_le_of_lt (Nat.sub_le _ _) t.isLt)).2.2 p).trans ?_
    rw [tile_logits]

/-- The row's tile logits as a function of the tile number. -/
def rowTiles (c : Dev nD) (r : Fin 2048) : ℕ → Fin 1280 → EReal :=
  fun j q => Cert.Lse.logit (XK m c) (WK m c) r (Cert.Lse.vocab j q)

/-- After point `n` the two columns at row `p` are the recurrence's pair after tiles `0 … n % 25` of that row. -/
theorem columns_eq (c : Dev nD) : ∀ (n : ℕ) (h : n < cfg0.N) (p : Fin 1024),
    ((outsAt0 m c n h).2.1 (ix2 p (0 : Fin 1)), (outsAt0 m c n h).2.2 (ix2 p (0 : Fin 1)))
      = Cert.Lse.runPair (rowTiles m c (rowAt ⟨n, h⟩ p)) (n % 25)
  | 0, h, p => by
    refine (pair_first m c ⟨0, h⟩ rfl (by show ¬(0 % 25 = 24); decide) p).trans ?_
    rfl
  | n + 1, h, p => by
    by_cases h0 : (n + 1) % 25 = 0
    · have h1 : ¬(n + 1) % 25 = 24 := by omega
      refine (pair_first m c ⟨n + 1, h⟩ h0 h1 p).trans ?_
      show Cert.Lse.tileStep (rowTiles m c (rowAt ⟨n + 1, h⟩ p) ((n + 1) % 25)) (⊥, 0) = _
      rw [h0]
      rfl
    · refine (pair_next m c ⟨n + 1, h⟩ h0 p).trans ?_
      have ih := columns_eq c n (Nat.lt_of_succ_lt h) p
      have hrow : rowAt ⟨n, Nat.lt_of_succ_lt h⟩ p = rowAt ⟨n + 1, h⟩ p := by
        apply Fin.ext
        show 1024 * (n / 25) + p.val = 1024 * ((n + 1) / 25) + p.val
        have : (n + 1) / 25 = n / 25 := by omega
        rw [this]
      have hmod : (n + 1) % 25 = n % 25 + 1 := by omega
      rw [hrow] at ih
      show Cert.Lse.tileStep (rowTiles m c (rowAt ⟨n + 1, h⟩ p) ((n + 1) % 25))
          ((outsAt0 m c n _).2.1 (ix2 p (0 : Fin 1)), (outsAt0 m c n _).2.2 (ix2 p (0 : Fin 1))) = _
      rw [ih, hmod]
      rfl

end Cert.KernelIdeal.Inv

end
-- ==== Proof.KernelFinal.lean ====
import proofs.«410185_j81827716923879_3_alg».proof.Proof.KernelInv

/-!
The array the region leaves: each row's log-sum-exp.

The output block of a row block is written only at its last vocabulary tile, from the two columns as that tile leaves
them: `maximum + log sum`, which by the induction over the points is the tiled recurrence's value after all 25 tiles
of that row. The two row blocks' last tiles (points 24 and 49) write the two halves of the 2048-row array, so every row
is covered and the array ends at each row's tiled log-sum-exp.
-/

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ)

/-- The tiled log-sum-exp of activations row `r`. -/
def lseRow (c : Dev nD) (r : Fin 2048) : EReal :=
  (Cert.Lse.runPair (Inv.rowTiles m c r) 24).1 + Ideal.log (Cert.Lse.runPair (Inv.rowTiles m c r) 24).2

/-- The array of them. -/
def lseArr (c : Dev nD) : S2048.Idx → Elt Ideal .f32 := fun i => lseRow m c (i 0)

/-- The output window's block index over the grid: the row block. -/
theorem idx_out : ∀ t : Fin cfg0.N, win0_2.index t (0 : Fin 1) = t.val / 25 :=
  (by decide +kernel : ∀ t : Fin grid0.N, win0_2.index t (0 : Fin 1) = t.val / 25)

/-- At the last tile of a row block the two columns, as the body leaves them, are the recurrence's pair after all 25 tiles. -/
theorem last_pair (c : Dev nD) (t : Fin cfg0.N) (h0 : ¬t.val % 25 = 0) (h1 : t.val % 25 = 24) (p : Fin 1024) :
    (k0_pay6 (F := Ideal) (Inv.wBlk m c t) (Inv.cellBlk m c t) (outsAt0 m c (t.val - 1) (Nat.lt_of_le_of_lt (Nat.sub_le _ _) t.isLt)).2.1 (ix2 p (0 : Fin 1)),
      k0_pay5 (F := Ideal) (Inv.wBlk m c t) (Inv.cellBlk m c t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2 (ix2 p (0 : Fin 1)))
      = Cert.Lse.runPair (Inv.rowTiles m c (Inv.rowAt t p)) 24 := by
  refine (Pay.step_eq (Inv.wBlk m c t) (Inv.cellBlk m c t) (outsAt0 m c (t.val - 1) (Nat.lt_of_le_of_lt (Nat.sub_le _ _) t.isLt)).2.1 (outsAt0 m c (t.val - 1) (Nat.lt_of_le_of_lt (Nat.sub_le _ _) t.isLt)).2.2 p).trans ?_
  rw [Inv.tile_logits]
  refine (Inv.pair_next m c t h0 p).symm.trans ?_
  have h := Inv.columns_eq m c t.val t.isLt p
  rw [h1] at h
  exact h

/-- What a last tile writes back is its block of the log-sum-exp array. -/
theorem flushed_eq (c : Dev nD) (t : Fin cfg0.N) (hf : (cfg0.win 2).flush t = true) :
    (dats m 0 c).flushed 2 t = ((cfg0.win 2).blk t).view.read (Elt Ideal) (lseArr m c) := by
  have h1 : t.val % 25 = 24 := (flush0_2 t).mp hf
  have h0 : ¬t.val % 25 = 0 := by omega
  show (cfg0.win 2).cut (grid0.coords t) ((dats m 0 c).after 2 t) = _
  rw [after0_2, outsAt0_C m c t h0 h1]
  dsimp only
  funext j
  obtain ⟨p, rfl⟩ : ∃ p : Fin 1024, j = ix1 p := ⟨j 0, eq_ix1 j⟩
  refine (congrFun (Pieces.out_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) (ix1 p)).trans ?_
  refine (Pay.pay7_apply (k0_pay6 (F := Ideal) (Inv.wBlk m c t) (Inv.cellBlk m c t) (outsAt0 m c (t.val - 1) (Nat.lt_of_le_of_lt (Nat.sub_le _ _) t.isLt)).2.1) (k0_pay5 (F := Ideal) (Inv.wBlk m c t) (Inv.cellBlk m c t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2) p).trans ?_
  rw [View.read_apply]
  have hrow : (((cfg0.win 2).blk t).view.emb (ix1 p)) 0 = Inv.rowAt t p := Fin.ext (by
    show win0_2.index t 0 * 1024 + 1 * p.val = 1024 * (t.val / 25) + p.val
    rw [idx_out t]; omega)
  show _ = lseRow m c ((((cfg0.win 2).blk t).view.emb (ix1 p)) 0)
  rw [hrow]
  unfold lseRow
  rw [← last_pair m c t h0 h1 p]

/-- An index of the array is in point `t`'s block iff its row is in that row block. -/
theorem mem_blk (t : Fin cfg0.N) (i : S2048.Idx) :
    i ∈ ((cfg0.win 2).blk t).view.set ↔ ∀ a : Fin 1, win0_2.index t a * S1024.size a ≤ (i a).val ∧ (i a).val < win0_2.index t a * S1024.size a + S1024.size a := by
  show i ∈ ((View.whole main_v3).slice (win0_2.rect t)).set ↔ _
  rw [View.set_slice_whole, Rect.mem_set_unit]
  exact Iff.rfl

/-- Every row lies in the block some last tile writes back. -/
theorem cover (i : S2048.Idx) : ∃ t : Fin cfg0.N, (cfg0.win 2).flush t = true ∧ i ∈ ((cfg0.win 2).blk t).view.set := by
  have hi : (i 0).val < 2048 := (i 0).isLt
  have hN := Inv.N50
  refine ⟨⟨25 * ((i 0).val / 1024) + 24, by omega⟩, (flush0_2 _).mpr (by show (25 * ((i 0).val / 1024) + 24) % 25 = 24; omega), ?_⟩
  rw [mem_blk]
  intro a
  match a with
  | ⟨0, _⟩ =>
    show win0_2.index ⟨25 * ((i 0).val / 1024) + 24, _⟩ (0 : Fin 1) * 1024 ≤ (i 0).val ∧ (i 0).val < win0_2.index ⟨25 * ((i 0).val / 1024) + 24, _⟩ (0 : Fin 1) * 1024 + 1024
    rw [idx_out]
    show (25 * ((i 0).val / 1024) + 24) / 25 * 1024 ≤ (i 0).val ∧ (i 0).val < (25 * ((i 0).val / 1024) + 24) / 25 * 1024 + 1024
    omega

/-- The output array after the run: each row's tiled log-sum-exp. -/
theorem final (c : Dev nD) : (dats m 0 c).arrAt 2 cfg0.N = lseArr m c :=
  (dats m 0 c).arrAt_eq_of_cover 2 (lseArr m c) (flushed_eq m c) (cover)

end Cert.KernelIdeal.Final

end
-- ==== Proof.LibRowTake.lean ====
/-
  A ROW TAKE read at an index.

  `table[idx]` for a rank-2 table `[N, D]` and a vector of `n` row numbers lowers to a `stablehlo.gather` whose
  start indices are the `[n, 1]` column of row numbers: the table's row axis is collapsed and start-indexed, its
  column axis is the result's one offset axis, a slice is one whole row (`slice_sizes = [1, D]`), and the index
  vector lies on axis 1 of the start indices. Result element `(r, c)` is then the table at row `idx[r, 0]`, read as
  a signed integer and clamped into `[0, N − 1]` (a negative row number reads row 0, one past the end the last
  row), and column `c`. `rowTakeDims` are those dimension numbers at any extents and `gather_rowTake_apply` is the
  read.
-/
import Idealize.ShloMosaic.Lib.ValueIdx

namespace Cert.LibRowTake

open Idealize.ShloMosaic Idealize.ShloMosaic.ValueIdx

variable {α : Type}

/-- The dimension numbers of a row take: table `[N, D]`, start indices `[n, 1]`, result `[n, D]`; their conditions
    `wf` are decided on a program's literal shapes. -/
abbrev rowTakeDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- The row axis of the table is start-indexed and collapsed: its coordinate is the clamped start index alone. -/
theorem rowTake_coord0 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (r : Fin n) (c : Fin D) :
    ((rowTakeDims N D n wf).operandIdx (ix2 r c) idx 0).val = min (idx (ix2 r (0 : Fin 1))).toInt.toNat (N - 1) := by
  show (rowTakeDims N D n wf).start (ix2 r c) idx 0 + (rowTakeDims N D n wf).batchCoord (ix2 r c) 0
      + (rowTakeDims N D n wf).offCoord (ix2 r c) 0 = _
  have hk : (0 : Fin 2) ∉ (rowTakeDims N D n wf).sKept := fun hm =>
    ((GatherDims.mem_sKept _ _).1 hm).1 (List.mem_singleton.2 rfl)
  rw [GatherDims.batchCoord_eq_zero _ _ _ List.not_mem_nil, GatherDims.offCoord_eq_zero _ _ _ hk]
  simp only [Nat.add_zero]
  have hm : (0 : Fin 2) ∈ (rowTakeDims N D n wf).startIndexMap := List.mem_singleton.2 rfl
  unfold GatherDims.start
  rw [dif_pos hm]
  have hsi : (rowTakeDims N D n wf).siIdx (ix2 r c) ⟨List.idxOf (0 : Fin 2) (rowTakeDims N D n wf).startIndexMap,
      List.idxOf_lt_length_iff.2 hm⟩ = ix2 r (0 : Fin 1) := by
    funext b
    refine Fin.ext ?_
    match b with
    | ⟨0, _⟩ => rfl
    | ⟨1, _⟩ => rfl
  rw [hsi]
  rfl

/-- The column axis of the table is the slice's one kept axis, not start-indexed: its coordinate is the result's
    offset coordinate alone. -/
theorem rowTake_coord1 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (r : Fin n) (c : Fin D) :
    ((rowTakeDims N D n wf).operandIdx (ix2 r c) idx 1).val = c.val := by
  show (rowTakeDims N D n wf).start (ix2 r c) idx 1 + (rowTakeDims N D n wf).batchCoord (ix2 r c) 1
      + (rowTakeDims N D n wf).offCoord (ix2 r c) 1 = _
  have h10 : ¬ (1 : Fin 2) = 0 := fun e => absurd (congrArg Fin.val e) Nat.one_ne_zero
  have hm : (1 : Fin 2) ∉ (rowTakeDims N D n wf).startIndexMap := fun hm => h10 (List.mem_singleton.1 hm)
  have hs : (rowTakeDims N D n wf).start (ix2 r c) idx 1 = 0 := by
    unfold GatherDims.start
    rw [dif_neg hm]
  rw [hs, GatherDims.batchCoord_eq_zero _ _ _ List.not_mem_nil]
  simp only [Nat.zero_add]
  have hk : (1 : Fin 2) ∈ (rowTakeDims N D n wf).sKept :=
    (GatherDims.mem_sKept _ _).2 ⟨fun h => h10 (List.mem_singleton.1 h), List.not_mem_nil⟩
  unfold GatherDims.offCoord
  rw [dif_pos hk]
  rfl

/-- THE ROW TAKE READ AT `(r, c)`: the table at the row the start index `idx[r, 0]` names, read signed and clamped
    into `[0, N − 1]`, and column `c`. -/
theorem gather_rowTake_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (r : Fin n) (c : Fin D) :
    Host.gather (rowTakeDims N D n wf) x idx (ix2 r c)
      = x (ix2 ⟨min (idx (ix2 r (0 : Fin 1))).toInt.toNat (N - 1), by omega⟩ c) := by
  show x ((rowTakeDims N D n wf).operandIdx (ix2 r c) idx) = _
  congr 1
  funext a
  refine Fin.ext ?_
  match a with
  | ⟨0, _⟩ => exact rowTake_coord0 wf idx r c
  | ⟨1, _⟩ => exact rowTake_coord1 wf idx r c

end Cert.LibRowTake
-- ==== Proof.KernelTail.lean ====
import proofs.«410185_j81827716923879_3_alg».proof.Proof.KernelFinal
import proofs.«410185_j81827716923879_3_alg».proof.Proof.LibRowTake
import Idealize.ShloMosaic.Lib.StableHlo.Run
import Idealize.ShloMosaic.Lib.Pipeline.FrameSuffix

/-!
The host lines after the region, and the kernel's result.

After the region the program gathers, per row, the weight row its (wrapped) label names, multiplies it into the row of
activations and sums: the target logit; subtracts it from the row's log-sum-exp; sums over the 2048 rows and divides by
their number. Read at the one index of the result this is the mean of the per-row terms of the specification.
-/

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen

/-! ## The tail as one function of the four arrays it reads -/

/-- The lines after the region, of the log-sum-exp array `a3`, the flattened activations `a0`, the weights `w` and the
    flattened labels `l`. -/
def tailFn (a3 : FVec Ideal S2048 .f32) (a0 : FVec Ideal S2048x1024 .f32) (w : FVec Ideal S32000x1024 .f32) (l : IVec S2048 32) :
    FVec Ideal S_ .f32 :=
  Host.divf (F := Ideal)
    (Host.reduceAdd (F := Ideal)
      (subf a3
        (Host.reduceAdd (F := Ideal)
          (mulf a0
            (Host.gather gather_S32000x1024_S2048x1_S2048x1024_1_0_n_n_0_1_11024 w
              (broadcastInDim S2048x1 ![0] bcast_S2048_S2048x1_0
                (select (cmpi .slt l (broadcastInDim S2048 ![] bcast_S_S2048 (constantI S_ 32 0#32)))
                  (addi l (broadcastInDim S2048 ![] bcast_S_S2048 (constantI S_ 32 32000#32))) l))))
          (constant (F := Ideal) S_ .f32 0x00000000#32) reducesTo_S2048x1024_S2048_d1 h_S_))
      (constant (F := Ideal) S_ .f32 0x00000000#32) reducesTo_S2048_S_d0 h_S_)
    (constant (F := Ideal) S_ .f32 0x45000000#32)

/-- A length-`n` vector's indices are its positions. -/
def idxEquiv1 (n : Nat) : Fin n ≃ (⟨1, ![n]⟩ : Shape).Idx where
  toFun := ix1
  invFun j := j 0
  left_inv _ := rfl
  right_inv j := (eq_ix1 j).symm

/-- The start index the gather reads for row `r`: the label, wrapped. -/
theorem wrapped_apply (l : IVec S2048 32) (r : Fin 2048) :
    broadcastInDim S2048x1 ![0] bcast_S2048_S2048x1_0
        (select (cmpi .slt l (broadcastInDim S2048 ![] bcast_S_S2048 (constantI S_ 32 0#32)))
          (addi l (broadcastInDim S2048 ![] bcast_S_S2048 (constantI S_ 32 32000#32))) l) (ix2 r (0 : Fin 1))
      = Cert.Lse.wrapLabel (l (ix1 r)) := by
  rw [broadcastInDim_apply (![0] : Fin 1 → Fin 2) bcast_S2048_S2048x1_0 _ (ix2 r (0 : Fin 1)) (ix1 r) (fun a => by
    match a with
    | ⟨0, _⟩ => rfl)]
  rfl

/-- A row sum of a [2048, 1024] array on the host, from the initial value. -/
theorem rowSum_apply (x : FVec Ideal S2048x1024 .f32) (init : EReal) (r : Fin 2048) :
    Ideal.hostReduceAdd reducesTo_S2048x1024_S2048_d1 x init (ix1 r) = init + ∑ k : Fin 1024, x (ix2 r k) := by
  rw [Ideal.hostReduceAdd_single reducesTo_S2048x1024_S2048_d1 (by decide)]
  refine congrArg (_ + ·) (Finset.sum_congr rfl fun k _ => ?_)
  exact congrArg x (funext fun a => Fin.ext (by match a with | ⟨0, _⟩ => rfl | ⟨1, _⟩ => rfl))

/-- The tail read at its one index. -/
theorem tailFn_apply (a3 : FVec Ideal S2048 .f32) (a0 : FVec Ideal S2048x1024 .f32) (w : FVec Ideal S32000x1024 .f32) (l : IVec S2048 32) :
    tailFn a3 a0 w l = fun _ => Ideal.div
      (0 + ∑ r : Fin 2048, (a3 (ix1 r) - (0 + ∑ k : Fin 1024, a0 (ix2 r k)
        * w (ix2 (⟨min (Cert.Lse.wrapLabel (l (ix1 r))).toInt.toNat 31999, by omega⟩ : Fin 32000) k))))
      (Ideal.ofBits .f32 0x45000000#32) := by
  funext i
  unfold tailFn
  show Ideal.div (Ideal.hostReduceAdd reducesTo_S2048_S_d0 _ (Ideal.ofBits .f32 0x00000000#32) i) (Ideal.ofBits .f32 0x45000000#32) = _
  rw [Ideal.hostReduceAdd_total reducesTo_S2048_S_d0 (fun b => b.elim0), Ideal.ofBits_zero_f32,
    ← Equiv.sum_comp (idxEquiv1 2048)]
  refine congrArg (fun s => Ideal.div (0 + s) _) (Finset.sum_congr rfl fun r _ => ?_)
  show a3 (ix1 r) - Ideal.hostReduceAdd reducesTo_S2048x1024_S2048_d1 _ (Ideal.ofBits .f32 0x00000000#32) (ix1 r) = _
  rw [rowSum_apply, Ideal.ofBits_zero_f32]
  refine congrArg (fun s => a3 (ix1 r) - (0 + s)) (Finset.sum_congr rfl fun k _ => ?_)
  refine congrArg (fun s => a0 (ix2 r k) * s)
    ((Cert.LibRowTake.gather_rowTake_apply (N := 32000) (D := 1024) (n := 2048) (by norm_num) (by decide) w _ r k).trans ?_)
  refine congrArg w (congrArg (fun a : Fin 32000 => ix2 a k) (Fin.ext ?_))
  show min _ (32000 - 1) = min _ 31999
  rw [wrapped_apply]

/-! ## What the tail's four arrays are after the region -/

variable (m : (ℓ : Loc nD τ sig) → Buf (Elt Ideal) ℓ) (ρ : Dev nD → PrngReg)

/-- The activations flattened to rows, as the host line before the region leaves them. -/
theorem V_v0 (c : Dev nD) :
    (V m c main_v0 : S2048x1024.Idx → EReal) = shapeCast S2048x1024 (m ((c : Thread nD τ).loc main_arg0)) shapeCasts_S4x512x1024_S2048x1024 := by
  show StableHlo.after hostOps0 (fun b => m (c, b)) (Proc.devRef .tc main_v0) = _
  after_results
  rfl

/-- The same in the matrix unit's input format: at the extended reals the change of format is the identity. -/
theorem V_v1 (c : Dev nD) :
    (V m c main_v1 : S2048x1024.Idx → EReal) = shapeCast S2048x1024 (m ((c : Thread nD τ).loc main_arg0)) shapeCasts_S4x512x1024_S2048x1024 := by
  show StableHlo.after hostOps0 (fun b => m (c, b)) (Proc.devRef .tc main_v1) = _
  after_results
  rfl

/-- The labels flattened. -/
theorem V_v2 (c : Dev nD) :
    (V m c main_v2 : S2048.Idx → BitVec 32) = shapeCast S2048 (m ((c : Thread nD τ).loc main_arg2)) shapeCasts_S4x512_S2048 := by
  show StableHlo.after hostOps0 (fun b => m (c, b)) (Proc.devRef .tc main_v2) = _
  after_results
  rfl

/-- A flattened activations row is the row of the rank-3 array with the same row-major position. -/
theorem flat_cell (x : S4x512x1024.Idx → EReal) (r : Fin 2048) (k : Fin 1024) :
    shapeCast S2048x1024 x shapeCasts_S4x512x1024_S2048x1024 (ix2 r k) = Cert.Lse.rowsOf x r k := by
  unfold Cert.Lse.rowsOf
  refine shapeCast_apply x shapeCasts_S4x512x1024_S2048x1024 (ix2 r k) _ ?_
  rewrite [Shape.rowMajor_val_three, Shape.rowMajor_val_two]
  have hr : r.val < 2048 := r.isLt
  show (r.val / 512 * 512 + r.val % 512) * 1024 + k.val = r.val * 1024 + k.val
  omega

/-- A flattened label likewise. -/
theorem flat_label (x : S4x512.Idx → BitVec 32) (r : Fin 2048) :
    shapeCast S2048 x shapeCasts_S4x512_S2048 (ix1 r)
      = x (ix2 (⟨r.val / 512, by have := r.isLt; omega⟩ : Fin 4) (⟨r.val % 512, Nat.mod_lt _ (by norm_num)⟩ : Fin 512)) := by
  refine shapeCast_apply x shapeCasts_S4x512_S2048 (ix1 r) _ ?_
  rewrite [Shape.rowMajor_val_two, Shape.rowMajor_val_one]
  show r.val / 512 * 512 + r.val % 512 = r.val
  omega

/-- The activations and the weights of the induction are the specification's readings of the two arguments. -/
theorem XK_eq (c : Dev nD) : Inv.XK m c = Cert.Lse.rowsOf (m ((c : Thread nD τ).loc main_arg0)) := by
  funext r k
  show (V m c main_v1 : S2048x1024.Idx → EReal) (ix2 r k) = _
  rw [V_v1, flat_cell]

theorem WK_eq (c : Dev nD) : Inv.WK m c = Cert.Lse.colsOf (m ((c : Thread nD τ).loc main_arg1)) := by
  funext v k
  show (V m c main_arg1 : S32000x1024.Idx → EReal) (ix2 v k) = _
  rw [V_main_arg1]
  rfl

/-- The tail's result is the tail function of the region's output array and the entry contents of the other three. -/
theorem tail_eq (c : Dev nD) :
    Pipeline.afterTail₀ cfgs (dats m) 0 (V0 m) [hostOps1] c main_v15
      = tailFn (Final.lseArr m c) (V m c main_v0) (m ((c : Thread nD τ).loc main_arg1)) (V m c main_v2) := by
  have h3 : Pipeline.withArrays spec0 c (V0 m c) (fun w => (dats m 0 c).arrAt w cfg0.N) (Proc.devRef .tc main_v3) = Final.lseArr m c :=
    (Pipeline.withArrays_arr spec0 launch0.win.arr_inj c _ _ 2).trans (Final.final m c)
  have h1 : Pipeline.withArrays spec0 c (V0 m c) (fun w => (dats m 0 c).arrAt w cfg0.N) (Proc.devRef .tc main_arg1) = m ((c : Thread nD τ).loc main_arg1) :=
    (Pipeline.withArrays_arr spec0 launch0.win.arr_inj c _ _ 1).trans (((dats m 0 c).arrAt_in 1 rfl _).trans ((A_eq m c 1).trans (V_main_arg1 m c)))
  have h0 : Pipeline.withArrays spec0 c (V0 m c) (fun w => (dats m 0 c).arrAt w cfg0.N) (Proc.devRef .tc main_v0) = V m c main_v0 :=
    Pipeline.withArrays_of_ne spec0 c (V0 m c) _ main_v0 (by decide)
  have h2 : Pipeline.withArrays spec0 c (V0 m c) (fun w => (dats m 0 c).arrAt w cfg0.N) (Proc.devRef .tc main_v2) = V m c main_v2 :=
    Pipeline.withArrays_of_ne spec0 c (V0 m c) _ main_v2 (by decide)
  unfold Pipeline.afterTail₀
  show StableHlo.after hostOps1 (Pipeline.withArrays spec0 c (V0 m c) fun w => (dats m 0 c).arrAt w cfg0.N) (Proc.devRef .tc main_v15) = _
  after_results
  rw [h3, h1, h0, h2]
  rfl

/-- The log-sum-exp the tiled recurrence reaches on row `r`. -/
def lseOf (X : Fin 2048 → Fin 1024 → EReal) (W : Fin 32000 → Fin 1024 → EReal) (r : Fin 2048) : EReal :=
  (Cert.Lse.runPair (fun j q => Cert.Lse.logit X W r (Cert.Lse.vocab j q)) 24).1
    + Ideal.log (Cert.Lse.runPair (fun j q => Cert.Lse.logit X W r (Cert.Lse.vocab j q)) 24).2

theorem kernelRow_eq (X : Fin 2048 → Fin 1024 → EReal) (W : Fin 32000 → Fin 1024 → EReal) (r : Fin 2048) (u : Fin 32000) :
    Cert.Lse.kernelRow X W r u = lseOf X W r - (0 + ∑ k : Fin 1024, X r k * W u k) := rfl

/-- The tail of the flattened arguments and an array of the rows' log-sum-exps is the mean of the per-row terms. -/
theorem tailFn_spec (x0 : S4x512x1024.Idx → EReal) (x1 : S32000x1024.Idx → EReal) (x2 : S4x512.Idx → BitVec 32) (a3 : FVec Ideal S2048 .f32)
    (h3 : ∀ r : Fin 2048, a3 (ix1 r) = lseOf (Cert.Lse.rowsOf x0) (Cert.Lse.colsOf x1) r) :
    tailFn a3 (shapeCast S2048x1024 x0 shapeCasts_S4x512x1024_S2048x1024) x1 (shapeCast S2048 x2 shapeCasts_S4x512_S2048)
      = fun _ => Cert.Lse.kernelLoss (Ideal.ofBits .f32 0x45000000#32) (Cert.Lse.rowsOf x0) (Cert.Lse.colsOf x1) (Cert.Lse.labelOf x2) := by
  rw [tailFn_apply]
  funext _
  unfold Cert.Lse.kernelLoss
  refine congrArg (fun s => Ideal.div (0 + s) _) (Finset.sum_congr rfl fun r _ => ?_)
  rw [kernelRow_eq, h3 r]
  refine congrArg (fun s => _ - (0 + s)) (Finset.sum_congr rfl fun k _ => ?_)
  rw [flat_cell]
  refine congrArg (fun s => Cert.Lse.rowsOf x0 r k * s) ?_
  show x1 (ix2 _ k) = x1 (ix2 (Cert.Lse.labelOf x2 r) k)
  refine congrArg x1 (congrArg (fun a : Fin 32000 => ix2 a k) (Fin.ext ?_))
  show min (Cert.Lse.wrapLabel (shapeCast S2048 x2 shapeCasts_S4x512_S2048 (ix1 r))).toInt.toNat 31999 = (Cert.Lse.labelOf x2 r).val
  rw [flat_label]
  rfl

/-- The region's output array at row `r` is that log-sum-exp of the two arguments. -/
theorem lse_row (c : Dev nD) (r : Fin 2048) :
    Final.lseArr m c (ix1 r) = lseOf (Cert.Lse.rowsOf (m ((c : Thread nD τ).loc main_arg0))) (Cert.Lse.colsOf (m ((c : Thread nD τ).loc main_arg1))) r := by
  show Final.lseRow m c r = _
  unfold Final.lseRow Inv.rowTiles lseOf
  rw [XK_eq, WK_eq]

set_option maxHeartbeats 1000000 in
/-- The kernel's result: the mean of the specification's per-row terms. -/
theorem result_eq (c : Dev nD) :
    Pipeline.afterTail₀ cfgs (dats m) 0 (V0 m) [hostOps1] c main_v15
      = fun _ => Cert.Lse.kernelLoss (Ideal.ofBits .f32 0x45000000#32) (Cert.Lse.rowsOf (m ((c : Thread nD τ).loc main_arg0)))
          (Cert.Lse.colsOf (m ((c : Thread nD τ).loc main_arg1))) (Cert.Lse.labelOf (m ((c : Thread nD τ).loc main_arg2))) := by
  rw [tail_eq, V_v0, V_v2]
  exact tailFn_spec _ _ _ _ (lse_row m c)

/-- The kernel's run, read: its result at the mean of the specification's per-row terms, its arguments unchanged. -/
theorem run : θ_run defs (onTc (τ := τ) (main (F := Ideal))) ⟨m, fun _ => 0, ρ⟩ (fun r => ∀ c : Dev nD,
      r.2.mem ((c.tc : Thread nD τ).loc main_v15)
        = (fun _ => Cert.Lse.kernelLoss (Ideal.ofBits .f32 0x45000000#32) (Cert.Lse.rowsOf (m ((c : Thread nD τ).loc main_arg0)))
            (Cert.Lse.colsOf (m ((c : Thread nD τ).loc main_arg1))) (Cert.Lse.labelOf (m ((c : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Tail

end
-- ==== Proof.PreDecode.lean ====
import proofs.«410185_j81827716923879_3_alg».proof.Pre_finite_inputs
import proofs.«410185_j81827716923879_3_alg».proof.Proof.LseSpec
import Idealize.ShloMosaic.PureOps.Ideal
import Idealize.ShloMosaic.Lib.ReduceAll
import Idealize.ShloMosaic.Lib.StableHlo.Predicate
import Idealize.ShloMosaic.Lib.WordArith

noncomputable section

namespace Cert.PreDecode

open Idealize.ShloMosaic Cert.Pre_finite_inputs

variable [Cert.Pre_finite_inputs.Facts]

/-- The shape of rank 0 has exactly one index. -/
local instance : Subsingleton S_.Idx := ⟨fun a b => funext fun d => d.elim0⟩

/-- The word 0x7F800000 denotes +∞. -/
theorem ofBits_inf : Ideal.ofBits .f32 0x7F800000#32 = ⊤ := by simp [Ideal.ofBits, Ideal.ieee]

/-- Of the extended reals only a real number x has max x (−x) < +∞: at either infinity the maximum is +∞. -/
theorem real_of_abs_lt_top (x : EReal) (h : Ideal.cmp .olt (max x (-x)) ⊤ = 1#1) : ∃ r : ℝ, x = (r : EReal) := by
  unfold Ideal.cmp at h
  simp only [StableHlo.Predicate.ofBool_eq_one_iff, decide_eq_true_eq] at h
  induction x using EReal.rec with
  | bot => simp at h
  | coe r => exact ⟨r, rfl⟩
  | top => simp at h

/-- The precondition split into its three elementwise statements: the conjunction is 1 exactly when each conjunct
    is, and a conjunction over all entries of an array is 1 only if every entry is 1. -/
theorem decode (a0 : FVec Ideal S4x512x1024 .f32) (a1 : FVec Ideal S32000x1024 .f32) (a2 : IVec S4x512 32)
    (h : Cert.Pre_finite_inputs.fn (F := Ideal) a0 a1 a2 = fun _ => 1#1) :
    (∀ i, Ideal.cmp .olt (max (a0 i) (-(a0 i))) (Ideal.ofBits .f32 0x7F800000#32) = 1#1)
      ∧ (∀ i, Ideal.cmp .olt (max (a1 i) (-(a1 i))) (Ideal.ofBits .f32 0x7F800000#32) = 1#1)
      ∧ (∀ i, IntOp.andi (IntOp.cmpi .sge (a2 i) 4294935296#32) (IntOp.cmpi .slt (a2 i) 32000#32) = 1#1) := by
  have e := congrFun h (fun d => d.elim0)
  dsimp only [Cert.Pre_finite_inputs.fn, andi] at e
  rw [IntOp.andi_eq_one, IntOp.andi_eq_one] at e
  obtain ⟨⟨e0, e1⟩, e2⟩ := e
  exact ⟨fun i => Host.reduce_andi_all _ _ _ _ _ e0 i, fun i => Host.reduce_andi_all _ _ _ _ _ e1 i,
    fun i => Host.reduce_andi_all _ _ _ _ _ e2 i⟩

/-- Under the precondition every activation is a real number. -/
theorem finite_cell (a0 : FVec Ideal S4x512x1024 .f32) (a1 : FVec Ideal S32000x1024 .f32) (a2 : IVec S4x512 32)
    (h : Cert.Pre_finite_inputs.fn (F := Ideal) a0 a1 a2 = fun _ => 1#1) : ∀ i, ∃ x : ℝ, a0 i = (x : EReal) := by
  intro i
  have e := (decode a0 a1 a2 h).1 i
  rw [ofBits_inf] at e
  exact real_of_abs_lt_top _ e

/-- Under the precondition every weight is a real number. -/
theorem finite_clsw (a0 : FVec Ideal S4x512x1024 .f32) (a1 : FVec Ideal S32000x1024 .f32) (a2 : IVec S4x512 32)
    (h : Cert.Pre_finite_inputs.fn (F := Ideal) a0 a1 a2 = fun _ => 1#1) : ∀ i, ∃ w : ℝ, a1 i = (w : EReal) := by
  intro i
  have e := (decode a0 a1 a2 h).2.1 i
  rw [ofBits_inf] at e
  exact real_of_abs_lt_top _ e

/-- The two bounds as integers: the word 4294935296 read signed is −32000, and 32000 is itself. -/
theorem toInt_lo : (4294935296#32 : BitVec 32).toInt = -32000 := by decide
theorem toInt_hi : (32000#32 : BitVec 32).toInt = 32000 := by decide

/-- Under the precondition every label, read signed, lies in [-32000, 32000). -/
theorem label_range (a0 : FVec Ideal S4x512x1024 .f32) (a1 : FVec Ideal S32000x1024 .f32) (a2 : IVec S4x512 32)
    (h : Cert.Pre_finite_inputs.fn (F := Ideal) a0 a1 a2 = fun _ => 1#1) : ∀ i, -32000 ≤ (a2 i).toInt ∧ (a2 i).toInt < 32000 := by
  intro i
  have e := (decode a0 a1 a2 h).2.2 i
  rw [IntOp.andi_eq_one] at e
  obtain ⟨hge, hlt⟩ := e
  simp only [IntOp.cmpi, StableHlo.Predicate.ofBool_eq_one_iff, BitVec.sle, BitVec.slt, decide_eq_true_eq, toInt_lo, toInt_hi] at hge hlt
  exact ⟨hge, hlt⟩

/-- A label in [-32000, 32000) wraps into [0, 31999]. -/
theorem wrapLabel_range (b : BitVec 32) (h : -32000 ≤ b.toInt ∧ b.toInt < 32000) :
    0 ≤ (Cert.Lse.wrapLabel b).toInt ∧ (Cert.Lse.wrapLabel b).toInt ≤ 31999 := by
  obtain ⟨hlo, hhi⟩ := h
  have c0 : (0#32 : BitVec 32).toInt = 0 := by decide
  have hc : IntOp.cmpi .slt b 0#32 = 1#1 ↔ b.toInt < 0 := by
    simp only [IntOp.cmpi, StableHlo.Predicate.ofBool_eq_one_iff, BitVec.slt, decide_eq_true_eq, c0]
  unfold Cert.Lse.wrapLabel
  by_cases hb : b.toInt < 0
  · rw [if_pos (hc.2 hb)]
    -- a negative label: the sum b + 32000 lies in [0, 32000), far from either end of the signed range, so it does not wrap
    have hs : (b + 32000#32).toInt = b.toInt + 32000 := by
      rw [WordArith.toInt_add_of_bounds b 32000#32 (by rw [toInt_hi]; omega) (by rw [toInt_hi]; omega), toInt_hi]
    rw [hs]; omega
  · rw [if_neg (fun hh => hb (hc.1 hh))]
    omega

end Cert.PreDecode

end
-- ==== Proof.LibGatherRead.lean ====
/-
  `stablehlo.gather` READ AT AN INDEX, for four sets of dimension numbers that jnp's indexing prints and the
  library's `Predicate.gather_take` (a rank-1 table by a column of positions) does not cover:

  * `gather_cols_apply`   — `t[:, idx]` of a table [R, N] by n column numbers: result (r, p) is the table at row r, the
    column numbered `idx[p]`;
  * `gather_mid_apply`    — `t[:, idx]` of a table [1, N, C] by n numbers on the middle axis: result (0, p, k) is the
    table at (0, `idx[p]`, k);
  * `gather_cell3_apply`  — `t[i, j, k]` of a table [A, B, C] by n coordinate triples: result p is the table at the
    triple in row p of the start indices;
  * `gather_lead_cell3_apply` — `t[:, i, j, k]` of a table [R, A, B, C] by n coordinate triples: result (r, p) is the
    table at (r, the triple in row p).

  In each the start indices are an [n, 1] or [n, 3] array with the index vector on axis 1, and every start index is read as
  StableHLO reads it: SIGNED, and CLAMPED to its axis (a negative one reads position 0, one past the end the last position).
  Each lemma takes the dimension numbers as hypotheses (`rfl` on a printed record), so it applies to any record with those
  numbers whatever its name.
-/
import Idealize.ShloMosaic.PureOps
import Idealize.ShloMosaic.Lib.ValueIdx

namespace Cert.LibGatherRead

open Idealize.ShloMosaic Idealize.ShloMosaic.ValueIdx

/-- The position a start index `w` selects on an axis of `N` positions: read signed, clamped to `[0, N − 1]`. -/
def pos {w : Nat} (N : Nat) (hN : 0 < N) (i : BitVec w) : Fin N := ⟨min i.toInt.toNat (N - 1), by omega⟩

/-- An operand axis that is start-indexed and collapsed (slice size 1) reads the start index's component for it, signed
    and clamped to the axis. -/
theorem operandIdx_indexed {s si t : Shape} {w : Nat} (d : GatherDims s si t) (j : t.Idx) (idx : IVec si w)
    (a : Fin s.rank) (hm : a ∈ d.startIndexMap) (hc : a ∈ d.collapsedSliceDims) (hb : a ∉ d.operandBatchingDims) :
    (d.operandIdx j idx a).val
      = min (idx (d.siIdx j ⟨d.startIndexMap.idxOf a, List.idxOf_lt_length_iff.2 hm⟩)).toInt.toNat (s.size a - 1) := by
  have hk : a ∉ d.sKept := fun h => ((d.mem_sKept a).1 h).1 hc
  show d.start j idx a + d.batchCoord j a + d.offCoord j a = _
  rw [d.batchCoord_eq_zero j a hb, d.offCoord_eq_zero j a hk]
  simp only [Nat.add_zero]
  unfold GatherDims.start
  rw [dif_pos hm, d.slice_collapsed a hc]

/-- An operand axis that is kept whole and not start-indexed reads the result's coordinate on its offset axis. -/
theorem operandIdx_kept {s si t : Shape} {w : Nat} (d : GatherDims s si t) (j : t.Idx) (idx : IVec si w)
    (a : Fin s.rank) (hm : a ∉ d.startIndexMap) (hk : a ∈ d.sKept) :
    (d.operandIdx j idx a).val
      = (j (d.offsetDims[d.sKept.idxOf a]'(by rw [d.offset_length]; exact List.idxOf_lt_length_iff.2 hk))).val := by
  have hb := ((d.mem_sKept a).1 hk).2
  show d.start j idx a + d.batchCoord j a + d.offCoord j a = _
  rw [d.batchCoord_eq_zero j a hb, Nat.add_zero]
  unfold GatherDims.start GatherDims.offCoord
  rw [dif_neg hm, dif_pos hk, Nat.zero_add]

/-- Start indices [n, m] with the index vector on axis 1: the start-indices index of component `k` for a result index
    whose first batch coordinate is `p` is (p, k). -/
theorem siIdx_col {s t : Shape} {n m : Nat} (d : GatherDims s ⟨2, ![n, m]⟩ t) (hivd : d.indexVectorDim = 1)
    (j : t.Idx) (p : Fin n) (hp : ∀ h : 0 < d.batchDims.length, (j (d.batchDims[0]'h)).val = p.val)
    (c : Fin d.startIndexMap.length) (k : Fin m) (hck : c.val = k.val) :
    d.siIdx j c = ix2 p k := by
  funext b
  match b with
  | ⟨0, _⟩ =>
    unfold GatherDims.siIdx
    rw [dif_neg (by rw [hivd]; simp)]
    unfold GatherDims.siCoord
    apply Fin.ext
    simp only [Fin.val_cast]
    have key : ∀ (i : Nat) (h : i < d.batchDims.length), i = 0 → (j (d.batchDims[i]'h)).val = p.val := by
      intro i h hi; subst hi; exact hp h
    apply key
    show List.idxOf _ (List.filter (fun b : Fin 2 => decide (b.val ≠ d.indexVectorDim)) (List.finRange 2)) = 0
    rw [hivd]; rfl
  | ⟨1, _⟩ =>
    unfold GatherDims.siIdx
    rw [dif_pos (by rw [hivd])]
    apply Fin.ext
    exact hck

/-- COLUMNS of a table [R, N] by n column numbers (`t[:, idx]`). -/
theorem gather_cols_apply {α : Type} {R N n w : Nat} (hN : 0 < N)
    (d : GatherDims ⟨2, ![R, N]⟩ ⟨2, ![n, 1]⟩ ⟨2, ![R, n]⟩)
    (hoff : d.offsetDims = [0]) (hcoll : d.collapsedSliceDims = [1]) (hob : d.operandBatchingDims = [])
    (hsim : d.startIndexMap = [1]) (hivd : d.indexVectorDim = 1)
    (x : (⟨2, ![R, N]⟩ : Shape).Idx → α) (idx : IVec ⟨2, ![n, 1]⟩ w) (r : Fin R) (p : Fin n) :
    Host.gather d x idx (ix2 r p) = x (ix2 r (pos N hN (idx (ix2 p (0 : Fin 1))))) := by
  unfold Host.gather
  congr 1
  funext a
  apply Fin.ext
  have hb : ∀ a : Fin 2, a ∉ d.operandBatchingDims := fun a => by rw [hob]; exact List.not_mem_nil
  -- the result's batch axis is axis 1 (axis 0 is the offset axis): its coordinate is p
  have hbd : d.batchDims = [1] := by
    show Shape.kept _ d.offsetDims = [1]
    rw [hoff]; rfl
  have hp : ∀ h : 0 < d.batchDims.length, ((ix2 r p : (⟨2, ![R, n]⟩ : Shape).Idx) (d.batchDims[0]'h)).val = p.val := by
    have key : ∀ (l : List (Fin 2)) (h : 0 < l.length), l = [1] →
        ((ix2 r p : (⟨2, ![R, n]⟩ : Shape).Idx) (l[0]'h)).val = p.val := by
      intro l h hl; subst hl; rfl
    exact fun h => key _ h hbd
  match a with
  | ⟨0, _⟩ =>
    -- the rows are kept whole: the result's coordinate on its one offset axis
    have hk : (⟨0, by decide⟩ : Fin 2) ∈ d.sKept := (d.mem_sKept _).2 ⟨by rw [hcoll]; simp, hb _⟩
    rw [operandIdx_kept d _ idx _ (by rw [hsim]; simp) hk]
    have key : ∀ (l : List (Fin 2)) (i : Nat) (h : i < l.length), l = [0] →
        ((ix2 r p : (⟨2, ![R, n]⟩ : Shape).Idx) (l[i]'h)).val = r.val := by
      intro l i h hl; subst hl
      have hi : i = 0 := by simpa using h
      subst hi; rfl
    exact key _ _ _ hoff
  | ⟨1, _⟩ =>
    -- the columns are start-indexed and collapsed: the column number, signed and clamped
    rw [operandIdx_indexed d _ idx _ (by rw [hsim]; simp) (by rw [hcoll]; simp) (hb _),
      siIdx_col d hivd _ p hp _ (0 : Fin 1) (by show List.idxOf _ d.startIndexMap = 0; rw [hsim]; rfl)]
    rfl

/-- The MIDDLE axis of a table [1, N, C] by n numbers (`t[:, idx]` with a leading axis of extent 1). -/
theorem gather_mid_apply {α : Type} {N C n w : Nat} (hN : 0 < N)
    (d : GatherDims ⟨3, ![1, N, C]⟩ ⟨2, ![n, 1]⟩ ⟨3, ![1, n, C]⟩)
    (hoff : d.offsetDims = [0, 2]) (hcoll : d.collapsedSliceDims = [1]) (hob : d.operandBatchingDims = [])
    (hsim : d.startIndexMap = [1]) (hivd : d.indexVectorDim = 1)
    (x : (⟨3, ![1, N, C]⟩ : Shape).Idx → α) (idx : IVec ⟨2, ![n, 1]⟩ w) (p : Fin n) (k : Fin C) :
    Host.gather d x idx (ix3 (0 : Fin 1) p k) = x (ix3 (0 : Fin 1) (pos N hN (idx (ix2 p (0 : Fin 1)))) k) := by
  unfold Host.gather
  congr 1
  funext a
  apply Fin.ext
  have hb : ∀ a : Fin 3, a ∉ d.operandBatchingDims := fun a => by rw [hob]; exact List.not_mem_nil
  -- the result's batch axis is axis 1 (axes 0 and 2 are the offset axes): its coordinate is p
  have hbd : d.batchDims = [1] := by
    show Shape.kept _ d.offsetDims = [1]
    rw [hoff]; rfl
  have hp : ∀ h : 0 < d.batchDims.length,
      ((ix3 (0 : Fin 1) p k : (⟨3, ![1, n, C]⟩ : Shape).Idx) (d.batchDims[0]'h)).val = p.val := by
    have key : ∀ (l : List (Fin 3)) (h : 0 < l.length), l = [1] →
        ((ix3 (0 : Fin 1) p k : (⟨3, ![1, n, C]⟩ : Shape).Idx) (l[0]'h)).val = p.val := by
      intro l h hl; subst hl; rfl
    exact fun h => key _ h hbd
  -- the operand's kept axes are 0 and 2, read by the result's offset axes 0 and 2 in that order
  have hsk : d.sKept = [0, 2] := by
    show Shape.kept _ (d.collapsedSliceDims ++ d.operandBatchingDims) = [0, 2]
    rw [hcoll, hob]; rfl
  have key : ∀ (l : List (Fin 3)) (i i' : Nat) (h : i < l.length), l = [0, 2] → i = i' → (h' : i' < 2) →
      ((ix3 (0 : Fin 1) p k : (⟨3, ![1, n, C]⟩ : Shape).Idx) (l[i]'h)).val
        = ((ix3 (0 : Fin 1) p k : (⟨3, ![1, n, C]⟩ : Shape).Idx) (([0, 2] : List (Fin 3))[i']'h')).val := by
    intro l i i' h hl hi h'; subst hl; subst hi; rfl
  match a with
  | ⟨0, _⟩ =>
    have hk : (⟨0, by decide⟩ : Fin 3) ∈ d.sKept := (d.mem_sKept _).2 ⟨by rw [hcoll]; simp, hb _⟩
    rw [operandIdx_kept d _ idx _ (by rw [hsim]; simp) hk]
    exact key _ _ 0 _ hoff (by rw [hsk]; rfl) (by decide)
  | ⟨1, _⟩ =>
    -- the middle axis is start-indexed and collapsed: the number, signed and clamped
    rw [operandIdx_indexed d _ idx _ (by rw [hsim]; simp) (by rw [hcoll]; simp) (hb _),
      siIdx_col d hivd _ p hp _ (0 : Fin 1) (by show List.idxOf _ d.startIndexMap = 0; rw [hsim]; rfl)]
    rfl
  | ⟨2, _⟩ =>
    have hk : (⟨2, by decide⟩ : Fin 3) ∈ d.sKept := (d.mem_sKept _).2 ⟨by rw [hcoll]; simp, hb _⟩
    rw [operandIdx_kept d _ idx _ (by rw [hsim]; simp) hk]
    exact key _ _ 1 _ hoff (by rw [hsk]; rfl) (by decide)

/-- ONE ELEMENT of a table [A, B, C] per coordinate triple (`t[i, j, k]`). -/
theorem gather_cell3_apply {α : Type} {A B C n w : Nat} (hA : 0 < A) (hB : 0 < B) (hC : 0 < C)
    (d : GatherDims ⟨3, ![A, B, C]⟩ ⟨2, ![n, 3]⟩ ⟨1, ![n]⟩)
    (hoff : d.offsetDims = []) (hcoll : d.collapsedSliceDims = [0, 1, 2]) (hob : d.operandBatchingDims = [])
    (hsim : d.startIndexMap = [0, 1, 2]) (hivd : d.indexVectorDim = 1)
    (x : (⟨3, ![A, B, C]⟩ : Shape).Idx → α) (idx : IVec ⟨2, ![n, 3]⟩ w) (p : Fin n) :
    Host.gather d x idx (ix1 p)
      = x (ix3 (pos A hA (idx (ix2 p (0 : Fin 3)))) (pos B hB (idx (ix2 p (1 : Fin 3)))) (pos C hC (idx (ix2 p (2 : Fin 3))))) := by
  unfold Host.gather
  congr 1
  funext a
  apply Fin.ext
  have hb : ∀ a : Fin 3, a ∉ d.operandBatchingDims := fun a => by rw [hob]; exact List.not_mem_nil
  -- the result's one axis is its batch axis: a rank-1 index has the same coordinate wherever it is read
  have hp : ∀ h : 0 < d.batchDims.length, ((ix1 p : (⟨1, ![n]⟩ : Shape).Idx) (d.batchDims[0]'h)).val = p.val := fun h => by
    have e : ∀ X : Fin 1, ((ix1 p : (⟨1, ![n]⟩ : Shape).Idx) X).val = p.val := fun X => by
      obtain rfl : X = 0 := Subsingleton.elim _ _
      rfl
    exact e _
  match a with
  | ⟨0, _⟩ =>
    rw [operandIdx_indexed d _ idx _ (by rw [hsim]; simp) (by rw [hcoll]; simp) (hb _),
      siIdx_col d hivd _ p hp _ (0 : Fin 3) (by show List.idxOf _ d.startIndexMap = 0; rw [hsim]; rfl)]
    rfl
  | ⟨1, _⟩ =>
    rw [operandIdx_indexed d _ idx _ (by rw [hsim]; simp) (by rw [hcoll]; simp) (hb _),
      siIdx_col d hivd _ p hp _ (1 : Fin 3) (by show List.idxOf _ d.startIndexMap = 1; rw [hsim]; rfl)]
    rfl
  | ⟨2, _⟩ =>
    rw [operandIdx_indexed d _ idx _ (by rw [hsim]; simp) (by rw [hcoll]; simp) (hb _),
      siIdx_col d hivd _ p hp _ (2 : Fin 3) (by show List.idxOf _ d.startIndexMap = 2; rw [hsim]; rfl)]
    rfl

/-- The LEADING axis whole, one element of the other three per coordinate triple (`t[:, i, j, k]` of a table [R, A, B, C]). -/
theorem gather_lead_cell3_apply {α : Type} {R A B C n w : Nat} (hA : 0 < A) (hB : 0 < B) (hC : 0 < C)
    (d : GatherDims ⟨4, ![R, A, B, C]⟩ ⟨2, ![n, 3]⟩ ⟨2, ![R, n]⟩)
    (hoff : d.offsetDims = [0]) (hcoll : d.collapsedSliceDims = [1, 2, 3]) (hob : d.operandBatchingDims = [])
    (hsim : d.startIndexMap = [1, 2, 3]) (hivd : d.indexVectorDim = 1)
    (x : (⟨4, ![R, A, B, C]⟩ : Shape).Idx → α) (idx : IVec ⟨2, ![n, 3]⟩ w) (r : Fin R) (p : Fin n) :
    Host.gather d x idx (ix2 r p)
      = x (ix4 r (pos A hA (idx (ix2 p (0 : Fin 3)))) (pos B hB (idx (ix2 p (1 : Fin 3)))) (pos C hC (idx (ix2 p (2 : Fin 3))))) := by
  unfold Host.gather
  congr 1
  funext a
  apply Fin.ext
  have hb : ∀ a : Fin 4, a ∉ d.operandBatchingDims := fun a => by rw [hob]; exact List.not_mem_nil
  -- the result's batch axis is axis 1 (axis 0 is the offset axis): its coordinate is p
  have hbd : d.batchDims = [1] := by
    show Shape.kept _ d.offsetDims = [1]
    rw [hoff]; rfl
  have hp : ∀ h : 0 < d.batchDims.length, ((ix2 r p : (⟨2, ![R, n]⟩ : Shape).Idx) (d.batchDims[0]'h)).val = p.val := by
    have key : ∀ (l : List (Fin 2)) (h : 0 < l.length), l = [1] →
        ((ix2 r p : (⟨2, ![R, n]⟩ : Shape).Idx) (l[0]'h)).val = p.val := by
      intro l h hl; subst hl; rfl
    exact fun h => key _ h hbd
  match a with
  | ⟨0, _⟩ =>
    -- the kept axis: the result's coordinate on its one offset axis
    have hk : (⟨0, by decide⟩ : Fin 4) ∈ d.sKept := (d.mem_sKept _).2 ⟨by rw [hcoll]; simp, hb _⟩
    rw [operandIdx_kept d _ idx _ (by rw [hsim]; simp) hk]
    have key : ∀ (l : List (Fin 2)) (i : Nat) (h : i < l.length), l = [0] →
        ((ix2 r p : (⟨2, ![R, n]⟩ : Shape).Idx) (l[i]'h)).val = r.val := by
      intro l i h hl; subst hl
      have hi : i = 0 := by simpa using h
      subst hi; rfl
    exact key _ _ _ hoff
  | ⟨1, _⟩ =>
    rw [operandIdx_indexed d _ idx _ (by rw [hsim]; simp) (by rw [hcoll]; simp) (hb _),
      siIdx_col d hivd _ p hp _ (0 : Fin 3) (by show List.idxOf _ d.startIndexMap = 0; rw [hsim]; rfl)]
    rfl
  | ⟨2, _⟩ =>
    rw [operandIdx_indexed d _ idx _ (by rw [hsim]; simp) (by rw [hcoll]; simp) (hb _),
      siIdx_col d hivd _ p hp _ (1 : Fin 3) (by show List.idxOf _ d.startIndexMap = 1; rw [hsim]; rfl)]
    rfl
  | ⟨3, _⟩ =>
    rw [operandIdx_indexed d _ idx _ (by rw [hsim]; simp) (by rw [hcoll]; simp) (hb _),
      siIdx_col d hivd _ p hp _ (2 : Fin 3) (by show List.idxOf _ d.startIndexMap = 2; rw [hsim]; rfl)]
    rfl

end Cert.LibGatherRead
-- ==== Proof.RefSide.lean ====
import proofs.«410185_j81827716923879_3_alg».proof.Proof.RefReadP
import proofs.«410185_j81827716923879_3_alg».proof.Proof.LseSpec
import proofs.«410185_j81827716923879_3_alg».proof.Proof.PreDecode
import proofs.«410185_j81827716923879_3_alg».proof.Proof.LibGatherRead
import Idealize.ShloMosaic.PureOps.Ideal.Laws
import Idealize.ShloMosaic.PureOps.Reduce
import Idealize.ShloMosaic.Lib.ValueIdx
import Idealize.ShloMosaic.Lib.Pipeline.Value

noncomputable section

namespace Cert.RefSide

open Idealize.ShloMosaic Idealize.ShloMosaic.ValueIdx Cert.ReferenceIdeal Cert.ReferenceIdeal.Gen

/-- The reshaped dot_general at (r, v) is the logit of row r at vocabulary entry v: row r = 512 b + l of the flattened
    activations is (b, l) = (r / 512, r % 512). -/
theorem logits_apply (x0 : (⟨S4x512x1024, .f32⟩ : BufTy).Contents (Elt Ideal)) (x1 : (⟨S32000x1024, .f32⟩ : BufTy).Contents (Elt Ideal))
    (r : Fin 2048) (v : Fin 32000) :
    ReadP.val_main_v1 (F := Ideal) x0 x1 (ix2 r v) = Cert.Lse.logit (Cert.Lse.rowsOf x0) (Cert.Lse.colsOf x1) r v := by
  rw [ReadP.val_main_v1_apply, ReadP.val_main_v0_apply]
  unfold Cert.Lse.logit Cert.Lse.rowsOf Cert.Lse.colsOf
  refine Finset.sum_congr rfl fun k _ => ?_
  have hr := r.isLt
  have hv := v.isLt
  have e0 : ReadP.lidx_main_v0 (ReadP.idx_main_v1 (ix2 r v)) k
      = ix3 (⟨r.val / 512, by omega⟩ : Fin 4) (⟨r.val % 512, Nat.mod_lt _ (by norm_num)⟩ : Fin 512) k :=
    funext fun a => Fin.ext (by
      match a with
      | ⟨0, _⟩ => show (r.val * 32000 + v.val) / 16384000 = r.val / 512; omega
      | ⟨1, _⟩ => show (r.val * 32000 + v.val) / 32000 % 512 = r.val % 512; omega
      | ⟨2, _⟩ => rfl)
  have e1 : ReadP.ridx_main_v0 (ReadP.idx_main_v1 (ix2 r v)) k = ix2 v k :=
    funext fun a => Fin.ext (by
      match a with
      | ⟨0, _⟩ => show (r.val * 32000 + v.val) % 32000 = v.val; omega
      | ⟨1, _⟩ => rfl)
  rw [e0, e1]

/-- The word 0xFF800000 denotes −∞. -/
theorem ofBits_neg_inf : Ideal.ofBits .f32 0xFF800000#32 = (⊥ : EReal) := by simp [Ideal.ofBits, Ideal.ieee]

/-- The source index over row r with coordinate k on the reduced axis 1. -/
theorem lift_row (h : S2048x32000.Reduces [1] S2048) (r : Fin 2048) (k : Fin 32000) :
    h.lift (ix1 r) k = ix2 r k :=
  funext fun a => Fin.ext (by match a with | ⟨0, _⟩ => rfl | ⟨1, _⟩ => rfl)

/-- The row maximum the program takes is the maximum of −∞ and the fold of the row's logits from −∞. -/
theorem rowmax_apply (x0 : (⟨S4x512x1024, .f32⟩ : BufTy).Contents (Elt Ideal)) (x1 : (⟨S32000x1024, .f32⟩ : BufTy).Contents (Elt Ideal))
    (r : Fin 2048) :
    ReadP.val_main_call0_v2 (F := Ideal) x0 x1 (ix1 r) = Cert.Lse.refMax (Cert.Lse.rowsOf x0) (Cert.Lse.colsOf x1) r := by
  rw [ReadP.val_main_call0_v2_apply, ReadP.val_main_call0_v1_apply, ReadP.val_main_call0_cst_0_apply]
  unfold ReadP.val_main_call0_v0
  have hred : S2048x32000.Reduces [1] S2048 := by decide
  have e := Host.reduce_eq_fold_single (a := (1 : Fin 2)) (FloatOps.maximumf (F := Ideal) (φ := .f32))
    (ReadP.val_main_v1 (F := Ideal) x0 x1) (ReadP.val_main_call0_cst (F := Ideal)) reducesTo_S2048x32000_S2048_d1 hred h_S_ (ix1 r)
  rw [e, ReadP.val_main_call0_cst_apply]
  unfold Cert.Lse.refMax
  have hf : (ReadP.val_main_v1 (F := Ideal) x0 x1 ∘ hred.lift (ix1 r))
      = fun v : Fin 32000 => Cert.Lse.logit (Cert.Lse.rowsOf x0) (Cert.Lse.colsOf x1) r v := funext fun v => by
    exact (congrArg (ReadP.val_main_v1 (F := Ideal) x0 x1) (lift_row hred r v)).trans (logits_apply x0 x1 r v)
  rw [hf]
  show max (Ideal.ofBits .f32 0xFF800000#32) (Finset.univ.fold max (Ideal.ofBits .f32 0xFF800000#32)
      (fun v : Fin 32000 => Cert.Lse.logit (Cert.Lse.rowsOf x0) (Cert.Lse.colsOf x1) r v)) = _
  rw [ofBits_neg_inf]

/-- The shifted logit at (r, v): the logit minus the row's maximum. -/
theorem shifted_apply (x0 : (⟨S4x512x1024, .f32⟩ : BufTy).Contents (Elt Ideal)) (x1 : (⟨S32000x1024, .f32⟩ : BufTy).Contents (Elt Ideal))
    (r : Fin 2048) (v : Fin 32000) :
    ReadP.val_main_call0_v5 (F := Ideal) x0 x1 (ix2 r v)
      = Cert.Lse.logit (Cert.Lse.rowsOf x0) (Cert.Lse.colsOf x1) r v - Cert.Lse.refMax (Cert.Lse.rowsOf x0) (Cert.Lse.colsOf x1) r := by
  rw [ReadP.val_main_call0_v5_apply, ReadP.val_main_call0_v4_apply, ReadP.val_main_call0_v3_apply, logits_apply]
  have ei : ReadP.idx_main_call0_v3 (ReadP.idx_main_call0_v4 (ix2 r v)) = ix1 r :=
    funext fun a => Fin.ext (by match a with | ⟨0, _⟩ => rfl)
  rw [ei, rowmax_apply, Ideal.subf_def]

/-- The row's sum of exponentials of the shifted logits, taken from 0. -/
theorem sumexp_apply (x0 : (⟨S4x512x1024, .f32⟩ : BufTy).Contents (Elt Ideal)) (x1 : (⟨S32000x1024, .f32⟩ : BufTy).Contents (Elt Ideal))
    (r : Fin 2048) :
    ReadP.val_main_call0_v7 (F := Ideal) x0 x1 (ix1 r)
      = 0 + ∑ v : Fin 32000, Ideal.exp (Cert.Lse.logit (Cert.Lse.rowsOf x0) (Cert.Lse.colsOf x1) r v - Cert.Lse.refMax (Cert.Lse.rowsOf x0) (Cert.Lse.colsOf x1) r) := by
  rw [ReadP.val_main_call0_v7_apply, ReadP.val_main_call0_cst_1_apply]
  refine congrArg₂ (· + ·) Ideal.ofBits_zero_f32 (Finset.sum_congr rfl fun v _ => ?_)
  rw [ReadP.val_main_call0_v6_apply]
  have ei : ReadP.idx_main_call0_v7 (ix1 r) v = ix2 r v :=
    funext fun a => Fin.ext (by match a with | ⟨0, _⟩ => rfl | ⟨1, _⟩ => rfl)
  rw [ei, shifted_apply, Ideal.hostUnary_exp_def]

/-- The log-softmax at (r, v). -/
theorem logp_apply (x0 : (⟨S4x512x1024, .f32⟩ : BufTy).Contents (Elt Ideal)) (x1 : (⟨S32000x1024, .f32⟩ : BufTy).Contents (Elt Ideal))
    (r : Fin 2048) (v : Fin 32000) :
    ReadP.val_main_v3 (F := Ideal) x0 x1 (ix2 r v)
      = (Cert.Lse.logit (Cert.Lse.rowsOf x0) (Cert.Lse.colsOf x1) r v - Cert.Lse.refMax (Cert.Lse.rowsOf x0) (Cert.Lse.colsOf x1) r)
        - Ideal.log (0 + ∑ v' : Fin 32000, Ideal.exp (Cert.Lse.logit (Cert.Lse.rowsOf x0) (Cert.Lse.colsOf x1) r v' - Cert.Lse.refMax (Cert.Lse.rowsOf x0) (Cert.Lse.colsOf x1) r)) := by
  rw [ReadP.val_main_v3_apply, shifted_apply, ReadP.val_main_call0_v10_apply, ReadP.val_main_call0_v9_apply, ReadP.val_main_call0_v8_apply]
  have ei : ReadP.idx_main_call0_v8 (ReadP.idx_main_call0_v10 (ix2 r v)) = ix1 r :=
    funext fun a => Fin.ext (by match a with | ⟨0, _⟩ => rfl)
  rw [ei, sumexp_apply, Ideal.hostUnary_log_def, Ideal.subf_def]

/-- The wrapped label of row r as the program computes it: the label plus 32000 where it is negative. -/
theorem wrapped_apply (x2 : (⟨S4x512, .i32⟩ : BufTy).Contents (Elt Ideal)) (r : Fin 2048) :
    ReadP.val_main_call1_v5 (F := Ideal) x2 (ix3 r (0 : Fin 1) (0 : Fin 1))
      = Cert.Lse.wrapLabel (x2 (ix2 (⟨r.val / 512, by have := r.isLt; omega⟩ : Fin 4) (⟨r.val % 512, Nat.mod_lt _ (by norm_num)⟩ : Fin 512))) := by
  rw [ReadP.val_main_call1_v5_apply, ReadP.val_main_call1_v4_apply, ReadP.val_main_call1_v1_apply, ReadP.val_main_call1_v3_apply,
    ReadP.val_main_call1_v0_apply, ReadP.val_main_call1_c_apply, ReadP.val_main_call1_v2_apply, ReadP.val_main_call1_c_0_apply,
    ReadP.val_main_v4_apply, ReadP.val_main_v2_apply]
  have hr := r.isLt
  have ei : ReadP.idx_main_v2 (ReadP.idx_main_v4 (ReadP.idx_main_call1_v5 (ix3 r (0 : Fin 1) (0 : Fin 1))))
      = ix2 (⟨r.val / 512, by omega⟩ : Fin 4) (⟨r.val % 512, Nat.mod_lt _ (by norm_num)⟩ : Fin 512) :=
    funext fun a => Fin.ext (by
      match a with
      | ⟨0, _⟩ => show ((r.val * 1 + 0) * 1 + 0) / 1 / 512 = r.val / 512; omega
      | ⟨1, _⟩ => show ((r.val * 1 + 0) * 1 + 0) / 1 % 512 = r.val % 512; omega)
  rw [ei]
  rfl

/-- Conjunction of one-bit words is commutative … -/
local instance andi_comm1 : Std.Commutative (IntOp.andi (w := 1)) := ⟨fun a b => BitVec.and_comm a b⟩
/-- … and associative. -/
local instance andi_assoc1 : Std.Associative (IntOp.andi (w := 1)) := ⟨fun a b c => BitVec.and_assoc a b c⟩

/-- A fold over the one-element index set is the operation applied once to the initial value. -/
theorem fold_fin1 {α : Type} (f : α → α → α) [Std.Commutative f] [Std.Associative f] (b : α) (g : Fin 1 → α) :
    (Finset.univ : Finset (Fin 1)).fold f b g = f (g 0) b := by
  rw [Finset.univ_unique, Finset.fold_singleton]; rfl

/-- The source index over (r, 0) with coordinate k on the reduced axis 2 of the flags. -/
theorem lift_flag (h : S2048x1x1.Reduces [2] S2048x1) (r : Fin 2048) (k : Fin 1) :
    h.lift (ix2 r (0 : Fin 1)) k = ix3 r (0 : Fin 1) (0 : Fin 1) :=
  funext fun a => Fin.ext (by
    match a with
    | ⟨0, _⟩ => rfl
    | ⟨1, _⟩ => rfl
    | ⟨2, _⟩ => show k.val = 0; omega)

/-- The shape relations the precondition function's operations ask, at its literal shapes. -/
theorem preFacts : Cert.Pre_finite_inputs.Facts :=
  ⟨by decide, by decide, by decide, by decide, by decide, by decide, by decide⟩

/-- With the label in [-32000, 32000) the wrapped label is in [0, 31999], so the in-bounds flag of row r is 1. -/
theorem flag_apply (x2 : (⟨S4x512, .i32⟩ : BufTy).Contents (Elt Ideal))
    (hlab : ∀ i, -32000 ≤ (x2 i).toInt ∧ (x2 i).toInt < 32000) (r : Fin 2048) :
    ReadP.val_main_call1_v12 (F := Ideal) x2 (ix2 r (0 : Fin 1)) = 1#1 := by
  unfold ReadP.val_main_call1_v12
  have hred : S2048x1x1.Reduces [2] S2048x1 := by decide
  have e := Host.reduce_eq_fold_single (a := (2 : Fin 3)) (IntOp.andi (w := 1))
    (ReadP.val_main_call1_v11 (F := Ideal) x2) (ReadP.val_main_call1_c_3 (F := Ideal)) reducesTo_S2048x1x1_S2048x1_d2 hred h_S_ (ix2 r (0 : Fin 1))
  rw [e]
  refine (fold_fin1 (IntOp.andi (w := 1)) _ _).trans ?_
  rw [IntOp.andi_eq_one]
  refine ⟨?_, rfl⟩
  show ReadP.val_main_call1_v11 (F := Ideal) x2 (hred.lift (ix2 r (0 : Fin 1)) (0 : Fin 1)) = 1#1
  rw [lift_flag hred r (0 : Fin 1), ReadP.val_main_call1_v11_apply, IntOp.andi_eq_one, ReadP.val_main_call1_v7_apply, ReadP.val_main_call1_v10_apply,
    IntOp.cmpi_sge, IntOp.cmpi_sle, ReadP.val_main_call1_v6_apply, ReadP.val_main_call1_c_2_apply, ReadP.val_main_call1_v9_apply,
    ReadP.val_main_call1_v8_apply, ReadP.val_main_call1_c_1_apply, wrapped_apply]
  have h0 : (0#32 : BitVec 32).toInt = 0 := by decide
  have h1 : (31999#32 : BitVec 32).toInt = 31999 := by decide
  rw [h0, h1]
  exact @Cert.PreDecode.wrapLabel_range preFacts _ (hlab _)

/-- The batching axis 0 of the operand reads the result's coordinate on the batch axis paired with it: the row. -/
theorem gather_axis0 (idx : IVec S2048x1x1 32) (r : Fin 2048) :
    (gather_S2048x32000_S2048x1x1_S2048x1_n_1_0_0_1_2_11.operandIdx (ix2 r (0 : Fin 1)) idx (0 : Fin 2)).val = r.val := by
  show gather_S2048x32000_S2048x1x1_S2048x1_n_1_0_0_1_2_11.start _ _ _
      + gather_S2048x32000_S2048x1x1_S2048x1_n_1_0_0_1_2_11.batchCoord _ _
      + gather_S2048x32000_S2048x1x1_S2048x1_n_1_0_0_1_2_11.offCoord _ _ = r.val
  have hb : (0 : Fin 2) ∈ gather_S2048x32000_S2048x1x1_S2048x1_n_1_0_0_1_2_11.operandBatchingDims := List.mem_singleton.2 rfl
  rw [GatherDims.start_batching _ _ _ _ hb,
    GatherDims.offCoord_eq_zero _ _ _ (fun h => ((GatherDims.mem_sKept _ _).1 h).2 hb), Nat.zero_add, Nat.add_zero]
  unfold GatherDims.batchCoord
  rw [dif_pos hb]
  unfold GatherDims.siCoord
  simp only [Fin.val_cast]
  have key : ∀ (l : List (Fin 2)) (i : Nat) (h : i < l.length), l = [0, 1] → i = 0 →
      ((ix2 r (0 : Fin 1) : S2048x1.Idx) (l[i]'h)).val = r.val := by
    intro l i h hl hi; subst hl; subst hi; rfl
  exact key _ _ _ rfl rfl

/-- The start-indexed, collapsed axis 1 of the operand reads the start index of row r, signed and clamped to [0, 31999]. -/
theorem gather_axis1 (idx : IVec S2048x1x1 32) (r : Fin 2048) :
    (gather_S2048x32000_S2048x1x1_S2048x1_n_1_0_0_1_2_11.operandIdx (ix2 r (0 : Fin 1)) idx (1 : Fin 2)).val
      = min (idx (ix3 r (0 : Fin 1) (0 : Fin 1))).toInt.toNat 31999 := by
  have hm : (1 : Fin 2) ∈ gather_S2048x32000_S2048x1x1_S2048x1_n_1_0_0_1_2_11.startIndexMap := List.mem_singleton.2 rfl
  have hc : (1 : Fin 2) ∈ gather_S2048x32000_S2048x1x1_S2048x1_n_1_0_0_1_2_11.collapsedSliceDims := List.mem_singleton.2 rfl
  have hb : (1 : Fin 2) ∉ gather_S2048x32000_S2048x1x1_S2048x1_n_1_0_0_1_2_11.operandBatchingDims := by
    show (1 : Fin 2) ∉ [0]; decide
  refine (Cert.LibGatherRead.operandIdx_indexed gather_S2048x32000_S2048x1x1_S2048x1_n_1_0_0_1_2_11
    (ix2 r (0 : Fin 1)) idx (1 : Fin 2) hm hc hb).trans ?_
  have hsi : gather_S2048x32000_S2048x1x1_S2048x1_n_1_0_0_1_2_11.siIdx (ix2 r (0 : Fin 1))
      ⟨gather_S2048x32000_S2048x1x1_S2048x1_n_1_0_0_1_2_11.startIndexMap.idxOf (1 : Fin 2), List.idxOf_lt_length_iff.2 hm⟩
      = ix3 r (0 : Fin 1) (0 : Fin 1) := by
    funext b; refine Fin.ext ?_
    match b with
    | ⟨0, _⟩ => rfl
    | ⟨1, _⟩ => rfl
    | ⟨2, _⟩ => rfl
  rw [hsi]
  rfl

/-- The gather of take_along_axis at (r, 0): the log-softmax at row r and at the start index of row r, read signed and
    clamped to [0, 31999]. -/
theorem gather_apply (x0 : (⟨S4x512x1024, .f32⟩ : BufTy).Contents (Elt Ideal)) (x1 : (⟨S32000x1024, .f32⟩ : BufTy).Contents (Elt Ideal))
    (x2 : (⟨S4x512, .i32⟩ : BufTy).Contents (Elt Ideal)) (r : Fin 2048) :
    ReadP.val_main_call1_v13 (F := Ideal) x0 x1 x2 (ix2 r (0 : Fin 1))
      = ReadP.val_main_v3 (F := Ideal) x0 x1
          (ix2 r (⟨min (ReadP.val_main_call1_v5 (F := Ideal) x2 (ix3 r (0 : Fin 1) (0 : Fin 1))).toInt.toNat 31999, by omega⟩ : Fin 32000)) := by
  unfold ReadP.val_main_call1_v13 Host.gather
  refine congrArg (ReadP.val_main_v3 (F := Ideal) x0 x1) (funext fun a => Fin.ext ?_)
  match a with
  | ⟨0, _⟩ => exact gather_axis0 _ r
  | ⟨1, _⟩ => exact gather_axis1 _ r

/-- What take_along_axis returns at (r, 0): the log-softmax of row r at the row's label. -/
theorem taken_apply (x0 : (⟨S4x512x1024, .f32⟩ : BufTy).Contents (Elt Ideal)) (x1 : (⟨S32000x1024, .f32⟩ : BufTy).Contents (Elt Ideal))
    (x2 : (⟨S4x512, .i32⟩ : BufTy).Contents (Elt Ideal))
    (hlab : ∀ i, -32000 ≤ (x2 i).toInt ∧ (x2 i).toInt < 32000) (r : Fin 2048) :
    ReadP.val_main_v5 (F := Ideal) x0 x1 x2 (ix2 r (0 : Fin 1))
      = ReadP.val_main_v3 (F := Ideal) x0 x1 (ix2 r (Cert.Lse.labelOf x2 r)) := by
  rw [ReadP.val_main_v5_apply, flag_apply x2 hlab r, select_one, gather_apply]
  refine congrArg (fun u : Fin 32000 => ReadP.val_main_v3 (F := Ideal) x0 x1 (ix2 r u)) (Fin.ext ?_)
  show min (ReadP.val_main_call1_v5 (F := Ideal) x2 (ix3 r (0 : Fin 1) (0 : Fin 1))).toInt.toNat 31999 = (Cert.Lse.labelOf x2 r).val
  rw [wrapped_apply]
  rfl

/-- The negated row term: minus the log-softmax at the label. -/
theorem rowterm_apply (x0 : (⟨S4x512x1024, .f32⟩ : BufTy).Contents (Elt Ideal)) (x1 : (⟨S32000x1024, .f32⟩ : BufTy).Contents (Elt Ideal))
    (x2 : (⟨S4x512, .i32⟩ : BufTy).Contents (Elt Ideal))
    (hlab : ∀ i, -32000 ≤ (x2 i).toInt ∧ (x2 i).toInt < 32000) (r : Fin 2048) :
    ReadP.val_main_v7 (F := Ideal) x0 x1 x2 (ix1 r)
      = Cert.Lse.refRow (Cert.Lse.rowsOf x0) (Cert.Lse.colsOf x1) r (Cert.Lse.labelOf x2 r) := by
  rw [ReadP.val_main_v7_apply, ReadP.val_main_v6_apply]
  have ei : ReadP.idx_main_v6 (ix1 r) = ix2 r (0 : Fin 1) :=
    funext fun a => Fin.ext (by
      match a with
      | ⟨0, _⟩ => show r.val / 1 = r.val; omega
      | ⟨1, _⟩ => rfl)
  rw [ei, taken_apply x0 x1 x2 hlab r, logp_apply]
  rfl

/-- The rows as rank-1 indices. -/
def rowEquiv : Fin 2048 ≃ S2048.Idx where
  toFun := ix1
  invFun j := j 0
  left_inv _ := rfl
  right_inv j := (eq_ix1 j).symm

/-- With every label in [-32000, 32000) the reference's result is the mean of minus the log-softmax at the label, row by row. -/
theorem ref_value (x0 : (⟨S4x512x1024, .f32⟩ : BufTy).Contents (Elt Ideal)) (x1 : (⟨S32000x1024, .f32⟩ : BufTy).Contents (Elt Ideal))
    (x2 : (⟨S4x512, .i32⟩ : BufTy).Contents (Elt Ideal))
    (hlab : ∀ i, -32000 ≤ (x2 i).toInt ∧ (x2 i).toInt < 32000) :
    Cert.ReferenceIdeal.ReadP.val_main_v9 (F := Ideal) x0 x1 x2
      = fun _ => Cert.Lse.refLoss (Ideal.ofBits .f32 0x45000000#32) (Cert.Lse.rowsOf x0) (Cert.Lse.colsOf x1) (Cert.Lse.labelOf x2) := by
  funext i
  rw [ReadP.val_main_v9_apply, ReadP.val_main_v8_apply, ReadP.val_main_cst_0_apply, ReadP.val_main_cst_apply,
    Ideal.hostDivf_def, Ideal.ofBits_def, Ideal.ofBits_def, Ideal.ofBits_zero_f32]
  unfold Cert.Lse.refLoss
  refine congrArg (fun s => Ideal.div (0 + s) (Ideal.ofBits .f32 0x45000000#32)) ?_
  rw [← Equiv.sum_comp rowEquiv]
  exact Finset.sum_congr rfl fun r _ => rowterm_apply x0 x1 x2 hlab r

end Cert.RefSide

end
-- ==== Proof.LseMath.lean ====
import proofs.«410185_j81827716923879_3_alg».proof.Proof.LseSpec
import Mathlib.Algebra.BigOperators.Fin
import Mathlib.Data.Fintype.BigOperators

noncomputable section

namespace Cert.Lse

open Idealize.ShloMosaic

/-- The coercion of a finite real sum is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running maximum of coerced reals over a nonempty finite type is the coercion of their maximum. -/
private theorem fold_max_coe {ι : Type*} [Fintype ι] [Nonempty ι] (f : ι → ℝ) :
    Finset.univ.fold max (⊥ : EReal) (fun i => (f i : EReal))
      = ((Finset.univ.sup' Finset.univ_nonempty f : ℝ) : EReal) := by
  have h : Finset.univ.fold max (⊥ : EReal) (fun i => (f i : EReal))
      = Finset.univ.sup (fun i => (f i : EReal)) := rfl
  rw [h]
  apply le_antisymm
  · exact Finset.sup_le fun i _ => EReal.coe_le_coe_iff.2 (Finset.le_sup' f (Finset.mem_univ i))
  · obtain ⟨i, _, hi⟩ := Finset.exists_mem_eq_sup' Finset.univ_nonempty f
    rw [hi]
    exact Finset.le_sup (f := fun i => (f i : EReal)) (Finset.mem_univ i)

/-- The maximum of one tile's real logits. -/
private def tmax (s : Fin 1280 → ℝ) : ℝ := Finset.univ.sup' Finset.univ_nonempty s

/-- The running maximum over tiles `0 … j`, in the reals. -/
private def mR (a : ℕ → Fin 1280 → ℝ) : ℕ → ℝ
  | 0 => tmax (a 0)
  | j + 1 => max (mR a j) (tmax (a (j + 1)))

/-- The running rescaled sum over tiles `0 … j`, in the reals. -/
private def sR (a : ℕ → Fin 1280 → ℝ) : ℕ → ℝ
  | 0 => ∑ q, Real.exp (a 0 q - mR a 0)
  | j + 1 => Real.exp (mR a j - mR a (j + 1)) * sR a j + ∑ q, Real.exp (a (j + 1) q - mR a (j + 1))

/-- The first tile, from (−∞, 0). -/
private theorem tileStep_first (s : Fin 1280 → ℝ) :
    tileStep (fun q => (s q : EReal)) (⊥, 0)
      = (((tmax s : ℝ) : EReal), ((∑ q, Real.exp (s q - tmax s) : ℝ) : EReal)) := by
  unfold tileStep
  rw [fold_max_coe]
  simp only [bot_le, max_eq_right, EReal.bot_sub, Ideal.exp_bot, mul_zero, zero_add]
  rw [coe_sum]
  rfl

/-- A later tile, from a finite pair. -/
private theorem tileStep_coe (s : Fin 1280 → ℝ) (m l : ℝ) :
    tileStep (fun q => (s q : EReal)) ((m : EReal), (l : EReal))
      = (((max m (tmax s) : ℝ) : EReal),
         ((Real.exp (m - max m (tmax s)) * l + ∑ q, Real.exp (s q - max m (tmax s)) : ℝ) : EReal)) := by
  unfold tileStep
  rw [fold_max_coe]
  have hmax : max (m : EReal) ((Finset.univ.sup' Finset.univ_nonempty s : ℝ) : EReal)
      = ((max m (tmax s) : ℝ) : EReal) := (EReal.coe_strictMono.monotone.map_max).symm
  simp only [hmax]
  rw [EReal.coe_add, EReal.coe_mul, coe_sum]
  rfl

/-- The pair after tiles `0 … j` of real logits is the coerced real pair. -/
private theorem runPair_coe (a : ℕ → Fin 1280 → ℝ) (j : ℕ) :
    runPair (fun i q => (a i q : EReal)) j = ((mR a j : EReal), (sR a j : EReal)) := by
  induction j with
  | zero => exact tileStep_first (a 0)
  | succ j ih =>
    show tileStep (fun q => (a (j + 1) q : EReal)) (runPair (fun i q => (a i q : EReal)) j) = _
    rw [ih, tileStep_coe]
    rfl

/-- The running sum is the sum of `exp (a i q - m)` over the tiles seen, `m` the running maximum. -/
private theorem sR_eq (a : ℕ → Fin 1280 → ℝ) (j : ℕ) :
    sR a j = ∑ i ∈ Finset.range (j + 1), ∑ q, Real.exp (a i q - mR a j) := by
  induction j with
  | zero => simp [sR]
  | succ j ih =>
    rw [Finset.sum_range_succ _ (j + 1)]
    show Real.exp (mR a j - mR a (j + 1)) * sR a j + _ = _
    rw [ih, Finset.mul_sum]
    congr 1
    refine Finset.sum_congr rfl fun i _ => ?_
    rw [Finset.mul_sum]
    refine Finset.sum_congr rfl fun q _ => ?_
    rw [← Real.exp_add]
    congr 1
    ring

private theorem sR_pos (a : ℕ → Fin 1280 → ℝ) (j : ℕ) : 0 < sR a j := by
  rw [sR_eq]
  exact Finset.sum_pos (fun i _ => Finset.sum_pos (fun q _ => Real.exp_pos _) Finset.univ_nonempty)
    ⟨0, Finset.mem_range.2 (Nat.succ_pos j)⟩

/-- Every logit of a tile seen is at most the running maximum. -/
private theorem le_mR (a : ℕ → Fin 1280 → ℝ) {i j : ℕ} (hij : i ≤ j) (q : Fin 1280) : a i q ≤ mR a j := by
  induction j, hij using Nat.le_induction with
  | base =>
    cases i with
    | zero => exact Finset.le_sup' (a 0) (Finset.mem_univ q)
    | succ i => exact le_max_of_le_right (Finset.le_sup' (a (i + 1)) (Finset.mem_univ q))
  | succ j _ ih => exact le_trans ih (le_max_left _ _)

/-- A bound on every logit bounds the running maximum. -/
private theorem mR_le (a : ℕ → Fin 1280 → ℝ) (B : ℝ) (h : ∀ i q, a i q ≤ B) (j : ℕ) : mR a j ≤ B := by
  induction j with
  | zero =>
    show Finset.univ.sup' Finset.univ_nonempty (a 0) ≤ B
    exact Finset.sup'_le _ _ fun q _ => h 0 q
  | succ j ih =>
    show max (mR a j) (Finset.univ.sup' Finset.univ_nonempty (a (j + 1))) ≤ B
    exact max_le ih (Finset.sup'_le _ _ fun q _ => h (j + 1) q)

private theorem vocab_val {j : ℕ} (hj : j < 25) (q : Fin 1280) : (vocab j q).val = 1280 * j + q.val := by
  show (1280 * j + q.val) % 32000 = _
  have := q.isLt
  exact Nat.mod_eq_of_lt (by omega)

/-- Every vocabulary entry is lane `v % 1280` of tile `v / 1280`. -/
private theorem vocab_div_mod (v : Fin 32000) :
    vocab (v.val / 1280) ⟨v.val % 1280, Nat.mod_lt _ (by norm_num)⟩ = v := by
  apply Fin.ext
  have := v.isLt
  rw [vocab_val (by omega)]
  show 1280 * (v.val / 1280) + v.val % 1280 = v.val
  omega

/-- A sum over the vocabulary is the sum over the 25 tiles of the sums over their lanes. -/
private theorem sum_vocab (f : Fin 32000 → ℝ) :
    ∑ v, f v = ∑ i ∈ Finset.range 25, ∑ q : Fin 1280, f (vocab i q) := by
  rw [← Fin.sum_univ_eq_sum_range (fun i => ∑ q : Fin 1280, f (vocab i q)) 25]
  rw [← Fintype.sum_prod_type' (fun (i : Fin 25) (q : Fin 1280) => f (vocab i q))]
  symm
  refine Fintype.sum_equiv (finProdFinEquiv : Fin 25 × Fin 1280 ≃ Fin 32000) _ _ fun x => ?_
  congr 1
  apply Fin.ext
  rw [vocab_val x.1.isLt]
  show _ = x.2.val + 1280 * x.1.val
  omega

/-- From tile 24 on, the running maximum of the tiled row is the row's maximum. -/
private theorem mR_vocab (ℓ : Fin 32000 → ℝ) (j : ℕ) (hj : 24 ≤ j) :
    mR (fun i q => ℓ (vocab i q)) j = Finset.univ.sup' Finset.univ_nonempty ℓ := by
  apply le_antisymm
  · exact mR_le (fun i q => ℓ (vocab i q)) (Finset.univ.sup' Finset.univ_nonempty ℓ)
      (fun i q => Finset.le_sup' ℓ (Finset.mem_univ (vocab i q))) j
  · refine Finset.sup'_le _ _ fun v _ => ?_
    have hv : v.val / 1280 ≤ j := by
      have := v.isLt
      omega
    have h := le_mR (fun i q => ℓ (vocab i q)) hv ⟨v.val % 1280, Nat.mod_lt _ (by norm_num)⟩
    rwa [vocab_div_mod] at h

/-- After tile 24 the running sum is the sum over the whole row. -/
private theorem sR_vocab (ℓ : Fin 32000 → ℝ) (j : ℕ) (hj : j + 1 = 25) :
    sR (fun i q => ℓ (vocab i q)) j = ∑ v, Real.exp (ℓ v - mR (fun i q => ℓ (vocab i q)) j) := by
  rw [sR_eq, sum_vocab, hj]

private theorem online_aux (ℓ : Fin 32000 → ℝ) (j : ℕ) (hj : j = 24) :
    ∃ M S : ℝ, 0 < S ∧
      runPair (fun j q => ((ℓ (vocab j q) : ℝ) : EReal)) j = ((M : EReal), (S : EReal)) ∧
      Finset.univ.fold max (⊥ : EReal) (fun v : Fin 32000 => ((ℓ v : ℝ) : EReal)) = (M : EReal) ∧
      ∑ v : Fin 32000, Ideal.exp (((ℓ v : ℝ) : EReal) - (M : EReal)) = (S : EReal) := by
  refine ⟨mR (fun i q => ℓ (vocab i q)) j, sR (fun i q => ℓ (vocab i q)) j, sR_pos _ j,
    runPair_coe (fun i q => ℓ (vocab i q)) j, ?_, ?_⟩
  · rw [fold_max_coe, mR_vocab ℓ j (le_of_eq hj.symm)]
  · simp only [← EReal.coe_sub, Ideal.exp_coe]
    rw [← coe_sum, sR_vocab ℓ j (by rw [hj])]

/-- On real logits the tiled recurrence ends at the row's maximum and the sum of `exp (ℓ v - M)` over the whole row. -/
theorem online_eq_global (ℓ : Fin 32000 → ℝ) :
    ∃ M S : ℝ, 0 < S ∧
      runPair (fun j q => ((ℓ (vocab j q) : ℝ) : EReal)) 24 = ((M : EReal), (S : EReal)) ∧
      Finset.univ.fold max (⊥ : EReal) (fun v : Fin 32000 => ((ℓ v : ℝ) : EReal)) = (M : EReal) ∧
      ∑ v : Fin 32000, Ideal.exp (((ℓ v : ℝ) : EReal) - (M : EReal)) = (S : EReal) :=
  online_aux ℓ 24 rfl

/-- With finite activations and weights the kernel's per-row term is the reference's. -/
theorem row_eq (X : Fin 2048 → Fin 1024 → EReal) (W : Fin 32000 → Fin 1024 → EReal)
    (hX : ∀ r k, ∃ x : ℝ, X r k = (x : EReal)) (hW : ∀ v k, ∃ w : ℝ, W v k = (w : EReal))
    (r : Fin 2048) (u : Fin 32000) : kernelRow X W r u = refRow X W r u := by
  choose x hx using hX
  choose w hw using hW
  have hl : ∀ v, logit X W r v = ((∑ k, x r k * w v k : ℝ) : EReal) := by
    intro v
    unfold logit
    rw [coe_sum]
    exact Finset.sum_congr rfl fun k _ => by rw [hx, hw, EReal.coe_mul]
  obtain ⟨M, S, hS, hrun, hmax, hsum⟩ := online_eq_global (fun v => ∑ k, x r k * w v k)
  have hfun : (fun (j : ℕ) (q : Fin 1280) => logit X W r (vocab j q))
      = fun j q => ((∑ k, x r k * w (vocab j q) k : ℝ) : EReal) := by
    funext j q
    exact hl _
  have hfun2 : (fun v : Fin 32000 => logit X W r v) = fun v => ((∑ k, x r k * w v k : ℝ) : EReal) := funext hl
  have hrm : refMax X W r = (M : EReal) := by
    unfold refMax
    rw [hfun2, hmax]
    exact max_eq_right bot_le
  have hlog : Ideal.log (S : EReal) = ((Real.log S : ℝ) : EReal) := by
    rw [Ideal.log_coe, if_neg (not_le.2 hS)]
  have hk : kernelRow X W r u = (((M + Real.log S) - ∑ k, x r k * w u k : ℝ) : EReal) := by
    unfold kernelRow
    rw [hfun, hrun]
    show ((M : EReal) + Ideal.log (S : EReal)) - (0 + logit X W r u) = _
    rw [hlog, hl, zero_add, ← EReal.coe_add, ← EReal.coe_sub]
  have hr : refRow X W r u = ((-(((∑ k, x r k * w u k) - M) - Real.log S) : ℝ) : EReal) := by
    unfold refRow
    rw [hrm]
    simp only [hl]
    rw [hsum, zero_add, hlog, ← EReal.coe_sub, ← EReal.coe_sub, ← EReal.coe_neg]
  rw [hk, hr]
  refine congrArg (fun t : ℝ => (t : EReal)) ?_
  ring

/-- So the two means agree. -/
theorem loss_eq (c : EReal) (X : Fin 2048 → Fin 1024 → EReal) (W : Fin 32000 → Fin 1024 → EReal) (u : Fin 2048 → Fin 32000)
    (hX : ∀ r k, ∃ x : ℝ, X r k = (x : EReal)) (hW : ∀ v k, ∃ w : ℝ, W v k = (w : EReal)) :
    kernelLoss c X W u = refLoss c X W u := by
  unfold kernelLoss refLoss
  exact congrArg (fun s => Ideal.div (0 + s) c) (Finset.sum_congr rfl fun r _ => row_eq X W hX hW r (u r))

end Cert.Lse

end
-- ==== Proof.lean ====
/-
  Softmax cross-entropy of a language-model head, `logits = cell · cls_wᵀ` over 2048 rows and 32000 vocabulary entries,
  averaged over the rows.

  The kernel never forms a row of logits. It walks the vocabulary in 25 tiles of 1280 and carries, per row, the running
  maximum `m` and the running sum `l` of `exp (logit − m)`, rescaling `l` by `exp (m_old − m_new)` at each tile; after the last
  tile `m + log l` is the row's log-sum-exp. After the region it gathers the weight row the label names, dots it with the
  row of activations (the target logit), subtracts, and averages. The reference takes the whole row: its maximum `M`,
  `S = ∑ᵥ exp (logitᵥ − M)`, the log-softmax `(logitᵤ − M) − log S` at the label `u`, negated, averaged.

  Over the extended reals, with every activation and weight finite, the logits are real numbers, the tiled recurrence
  ends at `(M, S)` exactly (`exp (a − b) · exp (c − a) = exp (c − b)`; the first tile starts from `exp (−∞) = 0`), and
  `(M + log S) − logitᵤ = −((logitᵤ − M) − log S)` row by row. The target logit is the same sum of products on both sides.

  The labels: both programs wrap a negative label by adding 32000. The reference then returns its fill value for a wrapped
  label outside [0, 31999], where the kernel's gather clamps; the precondition keeps every label in [−32000, 32000), the
  range on which the reference indexes inside its table, and there the clamp is the identity.

  The change of float format before the matrix product is the identity at the extended reals, so `preserves` has nothing
  to state.
-/
import proofs.«410185_j81827716923879_3_alg».proof.Defs
import proofs.«410185_j81827716923879_3_alg».proof.Proof.Gen.Kernel
import proofs.«410185_j81827716923879_3_alg».proof.Proof.Gen.Kernel.Skeleton
import proofs.«410185_j81827716923879_3_alg».proof.Proof.Gen.Kernel.Launch
import proofs.«410185_j81827716923879_3_alg».proof.Proof.Gen.Kernel.Points
import proofs.«410185_j81827716923879_3_alg».proof.Proof.Gen.Kernel.Frame
import proofs.«410185_j81827716923879_3_alg».proof.Proof.Gen.KernelIdeal
import proofs.«410185_j81827716923879_3_alg».proof.Proof.Gen.KernelIdeal.Skeleton
import proofs.«410185_j81827716923879_3_alg».proof.Proof.Gen.KernelIdeal.Launch
import proofs.«410185_j81827716923879_3_alg».proof.Proof.Gen.KernelIdeal.Points
import proofs.«410185_j81827716923879_3_alg».proof.Proof.Gen.KernelIdeal.Frame
import proofs.«410185_j81827716923879_3_alg».proof.Proof.Gen.ReferenceIdeal
import proofs.«410185_j81827716923879_3_alg».proof.Proof.Gen.Pre_finite_inputs
import proofs.«410185_j81827716923879_3_alg».proof.Proof.KernelTail
import proofs.«410185_j81827716923879_3_alg».proof.Proof.RefSide
import proofs.«410185_j81827716923879_3_alg».proof.Proof.LseMath
import proofs.«410185_j81827716923879_3_alg».proof.Proof.PreDecode
import Idealize.ShloMosaic.Adequacy
import Idealize.ShloMosaic.Init

noncomputable section

namespace Cert.Proof

open Idealize.ShloMosaic Idealize.ShloMosaic.TcCoe Idealize.SL.Sem

/-- The three programs run and leave their arguments as they found them. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the three arguments both programs end at the same mean: the kernel at the mean of the
    tiled per-row terms, the reference at the mean of minus the log-softmax at the label, equal row by row on finite
    activations and weights; the labels' range makes the reference's table read the kernel's. -/
theorem algebraic : Cert.algebraic_KernelIdeal_ReferenceIdeal := by
  intro m ρ m' ρ' hpre hagree
  refine ⟨fun c => fun _ => Cert.Lse.kernelLoss (Ideal.ofBits .f32 0x45000000#32)
      (Cert.Lse.rowsOf (m ((c.tc : Thread Cert.KernelIdeal.nD Cert.KernelIdeal.τ).loc Cert.KernelIdeal.main_arg0)))
      (Cert.Lse.colsOf (m ((c.tc : Thread Cert.KernelIdeal.nD Cert.KernelIdeal.τ).loc Cert.KernelIdeal.main_arg1)))
      (Cert.Lse.labelOf (m ((c.tc : Thread Cert.KernelIdeal.nD Cert.KernelIdeal.τ).loc Cert.KernelIdeal.main_arg2))),
    Cert.KernelIdeal.Tail.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v9_eq, (hagree c).1, (hagree c).2.1, (hagree c).2.2]
  rw [Cert.RefSide.ref_value _ _ _ (Cert.PreDecode.label_range _ _ _ (hpre c))]
  funext _
  exact (Cert.Lse.loss_eq _ _ _ _
    (fun r k => Cert.PreDecode.finite_cell _ _ _ (hpre c) _)
    (fun v k => Cert.PreDecode.finite_clsw _ _ _ (hpre c) _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
